-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2x512 : Shape := ⟨2, ![2, 512]⟩
abbrev S2 : Shape := ⟨1, ![2]⟩
abbrev S512512 : Shape := ⟨1, ![512512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_
  bcast_S_S512512 : S_.BroadcastsInDim S512512 (![] : Fin 0 → Fin S512512.rank)
  reducesTo_S512512_S_d0 : S512512.ReducesTo [0] S_

variable [Facts]

def fn_part1 {F : FTy → Type} [FloatOps F] (main_arg4 : IVec S512512 32) (main_arg5 : IVec S512512 32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_c_6 : IVec S_ 32 := constantI S_ 32 0#32
  let main_v19 : IVec S512512 32 := broadcastInDim S512512 ![] bcast_S_S512512 main_c_6
  let main_v20 : IVec S512512 1 := cmpi .sge main_arg4 main_v19
  let main_c_7 : IVec S_ 1 := constantI S_ 1 1#1
  let main_v21 : IVec S_ 1 := (fun x v => Host.reduce IntOp.andi x v reducesTo_S512512_S_d0 h_S_) main_v20 main_c_7
  let main_v22 : IVec S_ 1 := andi main_v18 main_v21
  let main_c_8 : IVec S_ 32 := constantI S_ 32 0#32
  let main_v23 : IVec S512512 32 := broadcastInDim S512512 ![] bcast_S_S512512 main_c_8
  let main_v24 : IVec S512512 1 := cmpi .sge main_arg5 main_v23
  let main_c_9 : IVec S_ 1 := constantI S_ 1 1#1
  let main_v25 : IVec S_ 1 := (fun x v => Host.reduce IntOp.andi x v reducesTo_S512512_S_d0 h_S_) main_v24 main_c_9
  let main_v26 : IVec S_ 1 := andi main_v22 main_v25
  main_v26

def fn {F : FTy → Type} [FloatOps F] (main_arg0 : FVec F S32768x256 .f32) (main_arg1 : FVec F S32768x256 .f32) (main_arg2 : FVec F S2x512 .f32) (main_arg3 : FVec F S2 .f32) (main_arg4 : IVec S512512 32) (main_arg5 : IVec S512512 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S2x512 .f32 := Host.absf main_arg2
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_v13 main_v16
-- ==== Kernel.lean ====
abbrev S32768x256 : Shape := ⟨2, ![32768, 256]⟩
abbrev S2x512 : Shape := ⟨2, ![2, 512]⟩
abbrev S2 : Shape := ⟨1, ![2]⟩
abbrev S512512 : Shape := ⟨1, ![512512]⟩
abbrev S2x256 : Shape := ⟨2, ![2, 256]⟩
abbrev S2x1 : Shape := ⟨2, ![2, 1]⟩
abbrev S4x32768 : Shape := ⟨2, ![4, 32768]⟩
abbrev S2048x256 : Shape := ⟨2, ![2048, 256]⟩
abbrev S4x2048 : Shape := ⟨2, ![4, 2048]⟩
abbrev S2x2048 : Shape := ⟨2, ![2, 2048]⟩
abbrev S2x32768 : Shape := ⟨2, ![2, 32768]⟩
abbrev S_ : Shape := ⟨0, ![]⟩
abbrev S512512x1 : Shape := ⟨2, ![512512, 1]⟩
abbrev S1 : Shape := ⟨1, ![1]⟩
abbrev S1x1 : Shape := ⟨2, ![1, 1]⟩
abbrev S2x512512 : Shape := ⟨2, ![2, 512512]⟩
abbrev S512512x2 : Shape := ⟨2, ![512512, 2]⟩

abbrev nBuf : Space → Nat
  | .hbm => 76
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S2x512, .f32⟩
  | .hbm, ⟨3, _⟩ => ⟨S2, .f32⟩
  | .hbm, ⟨4, _⟩ => ⟨S512512, .i32⟩
  | .hbm, ⟨5, _⟩ => ⟨S512512, .i32⟩
  | .hbm, ⟨6, _⟩ => ⟨S2x256, .f32⟩
  | .hbm, ⟨7, _⟩ => ⟨S2x256, .f32⟩
  | .hbm, ⟨8, _⟩ => ⟨S2x1, .f32⟩
  | .hbm, ⟨9, _⟩ => ⟨S4x32768, .f32⟩
  | .hbm, ⟨10, _⟩ => ⟨S2x32768, .f32⟩
  | .hbm, ⟨11, _⟩ => ⟨S2x32768, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512512, .i32⟩
  | .hbm, ⟨16, _⟩ => ⟨S512512, .i32⟩
  | .hbm, ⟨17, _⟩ => ⟨S_, .i32⟩
  | .hbm, ⟨18, _⟩ => ⟨S512512, .i32⟩
  | .hbm, ⟨19, _⟩ => ⟨S512512, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S512512, .i32⟩
  | .hbm, ⟨24, _⟩ => ⟨S512512, .i32⟩
  | .hbm, ⟨25, _⟩ => ⟨S_, .i32⟩
  | .hbm, ⟨26, _⟩ => ⟨S512512, .i32⟩
  | .hbm, ⟨27, _⟩ => ⟨S512512, .i32⟩
  | .hbm, ⟨28, _⟩ => ⟨S_, .i32⟩
  | .hbm, ⟨29, _⟩ => ⟨S512512, .i32⟩
  | .hbm, ⟨30, _⟩ => ⟨S512512, .i1⟩
  | .hbm, ⟨31, _⟩ => ⟨S_, .i32⟩
  | .hbm, ⟨32, _⟩ => ⟨S512512, .i32⟩
  | .hbm, ⟨33, _⟩ => ⟨S512512, .i32⟩
  | .hbm, ⟨34, _⟩ => ⟨S512512, .i32⟩
  | .hbm, ⟨35, _⟩ => ⟨S512512x1, .i32⟩
  | .hbm, ⟨36, _⟩ => ⟨S1, .i32⟩
  | .hbm, ⟨37, _⟩ => ⟨S_, .i32⟩
  | .hbm, ⟨38, _⟩ => ⟨S512512x1, .i32⟩
  | .hbm, ⟨39, _⟩ => ⟨S512512x1, .i1⟩
  | .hbm, ⟨40, _⟩ => ⟨S1x1, .i32⟩
  | .hbm, ⟨41, _⟩ => ⟨S512512x1, .i32⟩
  | .hbm, ⟨42, _⟩ => ⟨S512512x1, .i1⟩
  | .hbm, ⟨43, _⟩ => ⟨S512512x1, .i1⟩
  | .hbm, ⟨44, _⟩ => ⟨S_, .i1⟩
  | .hbm, ⟨45, _⟩ => ⟨S512512, .i1⟩
  | .hbm, ⟨46, _⟩ => ⟨S2x512512, .f32⟩
  | .hbm, ⟨47, _⟩ => ⟨S2x512512, .i1⟩
  | .hbm, ⟨48, _⟩ => ⟨S_, .f32⟩
  | .hbm, ⟨49, _⟩ => ⟨S2x512512, .f32⟩
  | .hbm, ⟨50, _⟩ => ⟨S2x512512, .f32⟩
  | .hbm, ⟨51, _⟩ => ⟨S_, .i32⟩
  | .hbm, ⟨52, _⟩ => ⟨S512512, .i32⟩
  | .hbm, ⟨53, _⟩ => ⟨S512512, .i1⟩
  | .hbm, ⟨54, _⟩ => ⟨S_, .i32⟩
  | .hbm, ⟨55, _⟩ => ⟨S512512, .i32⟩
  | .hbm, ⟨56, _⟩ => ⟨S512512, .i32⟩
  | .hbm, ⟨57, _⟩ => ⟨S512512, .i32⟩
  | .hbm, ⟨58, _⟩ => ⟨S512512x1, .i32⟩
  | .hbm, ⟨59, _⟩ => ⟨S1, .i32⟩
  | .hbm, ⟨60, _⟩ => ⟨S_, .i32⟩
  | .hbm, ⟨61, _⟩ => ⟨S512512x1, .i32⟩
  | .hbm, ⟨62, _⟩ => ⟨S512512x1, .i1⟩
  | .hbm, ⟨63, _⟩ => ⟨S1x1, .i32⟩
  | .hbm, ⟨64, _⟩ => ⟨S512512x1, .i32⟩
  | .hbm, ⟨65, _⟩ => ⟨S512512x1, .i1⟩
  | .hbm, ⟨66, _⟩ => ⟨S512512x1, .i1⟩
  | .hbm, ⟨67, _⟩ => ⟨S_, .i1⟩
  | .hbm, ⟨68, _⟩ => ⟨S512512, .i1⟩
  | .hbm, ⟨69, _⟩ => ⟨S2x512512, .f32⟩
  | .hbm, ⟨70, _⟩ => ⟨S2x512512, .i1⟩
  | .hbm, ⟨71, _⟩ => ⟨S_, .f32⟩
  | .hbm, ⟨72, _⟩ => ⟨S2x512512, .f32⟩
  | .hbm, ⟨73, _⟩ => ⟨S2x512512, .f32⟩
  | .hbm, ⟨74, _⟩ => ⟨S2x512512, .f32⟩
  | .hbm, ⟨75, _⟩ => ⟨S512512x2, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2x256, .f32⟩
  | .local _ .vmem, ⟨5, _⟩ => ⟨S2x256, .f32⟩
  | .local _ .vmem, ⟨6, _⟩ => ⟨S2x1, .f32⟩
  | .local _ .vmem, ⟨7, _⟩ => ⟨S4x2048, .f32⟩
  | .local _ .vmem, ⟨8, _⟩ => ⟨S4x2048, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v7 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v8 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x512_S2x256_0_0 : S2x512.Slices ![0, 0] S2x256
  slices_S2x512_S2x256_0_256 : S2x512.Slices ![0, 256] S2x256
  shapeCasts_S2_S2x1 : S2.ShapeCasts S2x1
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2048x256_S2048x256_0_0 : ∀ a, (![0, 0] : Fin 2 → Nat) a + S2048x256.size a ≤ S2048x256.size a
  h_S2048x256 : 0 < S2048x256.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x2048 : S2x1.Broadcasts S2x2048
  concatenates_S2x2048_S2x2048_S4x2048_d0 : Shape.Concatenates [S2x2048, S2x2048] S4x2048 0
  inb_S4x2048_S4x2048_0_0 : ∀ a, (![0, 0] : Fin 2 → Nat) a + S4x2048.size a ≤ S4x2048.size a
  h_S4x2048 : 0 < S4x2048.numel
  slices_S4x32768_S2x32768_0_0 : S4x32768.Slices ![0, 0] S2x32768
  slices_S4x32768_S2x32768_2_0 : S4x32768.Slices ![2, 0] S2x32768
  bcast_S_S512512 : S_.BroadcastsInDim S512512 (![] : Fin 0 → Fin S512512.rank)
  bcast_S512512_S512512x1_0 : S512512.BroadcastsInDim S512512x1 (![0] : Fin 1 → Fin S512512x1.rank)
  bcast_S_S512512x1 : S_.BroadcastsInDim S512512x1 (![] : Fin 0 → Fin S512512x1.rank)
  bcast_S1_S1x1_1 : S1.BroadcastsInDim S1x1 (![1] : Fin 1 → Fin S1x1.rank)
  bcast_S1x1_S512512x1_0_1 : S1x1.BroadcastsInDim S512512x1 (![0, 1] : Fin 2 → Fin S512512x1.rank)
  reducesTo_S512512x1_S512512_d1 : S512512x1.ReducesTo [1] S512512
  h_S_ : 0 < S_.numel
  bcast_S512512_S2x512512_1 : S512512.BroadcastsInDim S2x512512 (![1] : Fin 1 → Fin S2x512512.rank)
  bcast_S_S2x512512 : S_.BroadcastsInDim S2x512512 (![] : Fin 0 → Fin S2x512512.rank)
  transposes_S2x512512_S512512x2_1_0 : S2x512512.Transposes [1, 0] S512512x2
  dot_S2x256_S2048x256_S2x2048_1_1_0_0_n_n_wf : DotDims.WF S2x256 S2048x256 S2x2048 [1] [1] [0] [0] [] []
  gather_S2x32768_S512512x1_S2x512512_0_1_n_n_1_1_21_wf : GatherDims.WF S2x32768 S512512x1 S2x512512 [0] [1] [] [1] [] 1 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x256.size a
  hwx0_1 : ∀ i : grid0.Coords, EltTy.bits .f32 = 32 ∨ (Rect.block (s := S32768x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .f32 = 32 ∨ (Rect.block (s := S2x256) S2x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2048.size a ≤ S4x32768.size a
  hwx0_5 : ∀ i : grid0.Coords, EltTy.bits .f32 = 32 ∨ (Rect.block (s := S4x32768) S4x2048.size (cc0_transform_5 i) (hinb0_5 i)).WholeWords (EltTy.packing .f32)

variable [Facts₀]

def dot_S2x256_S2048x256_S2x2048_1_1_0_0_n_n : DotDims S2x256 S2048x256 S2x2048 where
  lhsContracting := [1]
  rhsContracting := [1]
  lhsNonContracting := [0]
  rhsNonContracting := [0]
  lhsBatch := []
  rhsBatch := []
  wf := dot_S2x256_S2048x256_S2x2048_1_1_0_0_n_n_wf
def gather_S2x32768_S512512x1_S2x512512_0_1_n_n_1_1_21 : GatherDims S2x32768 S512512x1 S2x512512 where
  offsetDims := [0]
  collapsedSliceDims := [1]
  operandBatchingDims := []
  startIndicesBatchingDims := []
  startIndexMap := [1]
  indexVectorDim := 1
  sliceSizes := ![2, 1]
  wf := gather_S2x32768_S512512x1_S2x512512_0_1_n_n_1_1_21_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x256 : Shape := ⟨2, ![32768, 256]⟩
abbrev S2x512 : Shape := ⟨2, ![2, 512]⟩
abbrev S2 : Shape := ⟨1, ![2]⟩
abbrev S512512 : Shape := ⟨1, ![512512]⟩
abbrev S2x256 : Shape := ⟨2, ![2, 256]⟩
abbrev S256x2 : Shape := ⟨2, ![256, 2]⟩
abbrev S32768x2 : Shape := ⟨2, ![32768, 2]⟩
abbrev S_ : Shape := ⟨0, ![]⟩
abbrev S512512x1 : Shape := ⟨2, ![512512, 1]⟩
abbrev S512512x2 : Shape := ⟨2, ![512512, 2]⟩
abbrev S1x2 : Shape := ⟨2, ![1, 2]⟩

abbrev nBuf : Space → Nat
  | .hbm => 34
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S2x512, .f32⟩
  | .hbm, ⟨3, _⟩ => ⟨S2, .f32⟩
  | .hbm, ⟨4, _⟩ => ⟨S512512, .i32⟩
  | .hbm, ⟨5, _⟩ => ⟨S512512, .i32⟩
  | .hbm, ⟨6, _⟩ => ⟨S2x256, .f32⟩
  | .hbm, ⟨7, _⟩ => ⟨S2x256, .f32⟩
  | .hbm, ⟨8, _⟩ => ⟨S256x2, .f32⟩
  | .hbm, ⟨9, _⟩ => ⟨S32768x2, .f32⟩
  | .hbm, ⟨10, _⟩ => ⟨S256x2, .f32⟩
  | .hbm, ⟨11, _⟩ => ⟨S32768x2, .f32⟩
  | .hbm, ⟨12, _⟩ => ⟨S_, .i32⟩
  | .hbm, ⟨13, _⟩ => ⟨S512512, .i32⟩
  | .hbm, ⟨14, _⟩ => ⟨S512512, .i1⟩
  | .hbm, ⟨15, _⟩ => ⟨S_, .i32⟩
  | .hbm, ⟨16, _⟩ => ⟨S512512, .i32⟩
  | .hbm, ⟨17, _⟩ => ⟨S512512, .i32⟩
  | .hbm, ⟨18, _⟩ => ⟨S512512, .i32⟩
  | .hbm, ⟨19, _⟩ => ⟨S512512x1, .i32⟩
  | .hbm, ⟨20, _⟩ => ⟨S512512x2, .f32⟩
  | .hbm, ⟨21, _⟩ => ⟨S_, .i32⟩
  | .hbm, ⟨22, _⟩ => ⟨S512512, .i32⟩
  | .hbm, ⟨23, _⟩ => ⟨S512512, .i1⟩
  | .hbm, ⟨24, _⟩ => ⟨S_, .i32⟩
  | .hbm, ⟨25, _⟩ => ⟨S512512, .i32⟩
  | .hbm, ⟨26, _⟩ => ⟨S512512, .i32⟩
  | .hbm, ⟨27, _⟩ => ⟨S512512, .i32⟩
  | .hbm, ⟨28, _⟩ => ⟨S512512x1, .i32⟩
  | .hbm, ⟨29, _⟩ => ⟨S512512x2, .f32⟩
  | .hbm, ⟨30, _⟩ => ⟨S512512x2, .f32⟩
  | .hbm, ⟨31, _⟩ => ⟨S1x2, .f32⟩
  | .hbm, ⟨32, _⟩ => ⟨S512512x2, .f32⟩
  | .hbm, ⟨33, _⟩ => ⟨S512512x2, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S2x512_S2x256_0_0 : S2x512.Slices ![0, 0] S2x256
  slices_S2x512_S2x256_0_256 : S2x512.Slices ![0, 256] S2x256
  transposes_S2x256_S256x2_1_0 : S2x256.Transposes [1, 0] S256x2
  bcast_S_S512512 : S_.BroadcastsInDim S512512 (![] : Fin 0 → Fin S512512.rank)
  bcast_S512512_S512512x1_0 : S512512.BroadcastsInDim S512512x1 (![0] : Fin 1 → Fin S512512x1.rank)
  bcast_S2_S1x2_1 : S2.BroadcastsInDim S1x2 (![1] : Fin 1 → Fin S1x2.rank)
  bcast_S1x2_S512512x2_0_1 : S1x2.BroadcastsInDim S512512x2 (![0, 1] : Fin 2 → Fin S512512x2.rank)
  dot_S32768x256_S256x2_S32768x2_1_0_0_1_n_n_wf : DotDims.WF S32768x256 S256x2 S32768x2 [1] [0] [0] [1] [] []
  gather_S32768x2_S512512x1_S512512x2_1_0_n_n_0_1_12_wf : GatherDims.WF S32768x2 S512512x1 S512512x2 [1] [0] [] [0] [] 1 ![1, 2]

variable [Facts₀]

def dot_S32768x256_S256x2_S32768x2_1_0_0_1_n_n : DotDims S32768x256 S256x2 S32768x2 where
  lhsContracting := [1]
  rhsContracting := [0]
  lhsNonContracting := [0]
  rhsNonContracting := [1]
  lhsBatch := []
  rhsBatch := []
  wf := dot_S32768x256_S256x2_S32768x2_1_0_0_1_n_n_wf
def gather_S32768x2_S512512x1_S512512x2_1_0_n_n_0_1_12 : GatherDims S32768x2 S512512x1 S512512x2 where
  offsetDims := [1]
  collapsedSliceDims := [0]
  operandBatchingDims := []
  startIndicesBatchingDims := []
  startIndexMap := [0]
  indexVectorDim := 1
  sliceSizes := ![1, 2]
  wf := gather_S32768x2_S512512x1_S512512x2_1_0_n_n_0_1_12_wf

class Facts : Prop extends Facts₀ where

variable [Facts]
-- ==== Proof.KFrame.lean ====
/-
  The frame of `Kernel`: the program is three host lines, one pallas_call on a grid of 16 points, and
  sixty-six host lines after it (a slice of the call's result into its two halves, two clamps of the index
  arrays, two takes, a sum and a transpose).  The pallas_call's body loads its five input blocks whole,
  computes one value and stores it over the whole output block, so after the body the output's staging
  buffer holds that value of the input blocks (`out5`) and every input's holds its block as found.
  With that as proof data the library's frame run around a region applies: the lines after the region
  touch only unscoped TensorCore buffers, allocate nothing and write none of the call's six arrays, and no
  line before or after the region writes an argument of @main, so every argument ends as launched.
  Everything here is at any float family `F`.
-/
import proofs.«412551_j8993661518510_3_alg».proof.Proof.Gen.Kernel.Launch
import proofs.«412551_j8993661518510_3_alg».proof.Proof.Gen.Kernel.Skeleton
import proofs.«412551_j8993661518510_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The TensorCore buffers when the region is entered: the three host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- A property of every line of every stretch after the region, from the property stretch by stretch. -/
theorem tail_all {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- @main is the host lines before the region, the region, and the seven stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  refine tail_all (P := fun op => op.bufs ⊆ _) ?_ ?_ ?_ ?_ ?_ ?_ ?_
  · exact List.forall_iff_forall_mem.mpr fun op hop => Pipeline.sub_ucRefs op ((List.forall_iff_forall_mem.mp hostOps1_sub) op hop)
  · exact List.forall_iff_forall_mem.mpr fun op hop => Pipeline.sub_ucRefs op ((List.forall_iff_forall_mem.mp hostOps1_1_sub) op hop)
  · exact List.forall_iff_forall_mem.mpr fun op hop => Pipeline.sub_ucRefs op ((List.forall_iff_forall_mem.mp hostOps1_2_sub) op hop)
  · exact List.forall_iff_forall_mem.mpr fun op hop => Pipeline.sub_ucRefs op ((List.forall_iff_forall_mem.mp hostOps1_3_sub) op hop)
  · exact List.forall_iff_forall_mem.mpr fun op hop => Pipeline.sub_ucRefs op ((List.forall_iff_forall_mem.mp hostOps1_4_sub) op hop)
  · exact List.forall_iff_forall_mem.mpr fun op hop => Pipeline.sub_ucRefs op ((List.forall_iff_forall_mem.mp hostOps1_5_sub) op hop)
  · exact List.forall_iff_forall_mem.mpr fun op hop => Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ :=
  tail_all hostOps1_fresh hostOps1_1_fresh hostOps1_2_fresh hostOps1_3_fresh hostOps1_4_fresh hostOps1_5_fresh hostOps1_6_fresh

/-! ## Which buffers the host lines write

Every host line writes its own result buffer and nothing else; none of those is an argument of @main or one of
the call's six arrays (`main_arg0`, `main_arg1`, the two weight halves `main_v0`, `main_v1`, the bias column
`main_v2` and the call's result `main_v3`). -/

/-- No host line after the region writes `main_arg0`. -/
theorem tail_keeps_main_arg0 : ∀ ops ∈ (tailOps : List (List (HloOp τ sig (Elt F)))), ∀ op ∈ ops, Proc.devRef .tc main_arg0 ∉ op.writes := by
  refine tail_all (P := fun op => Proc.devRef .tc main_arg0 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg1`. -/
theorem tail_keeps_main_arg1 : ∀ ops ∈ (tailOps : List (List (HloOp τ sig (Elt F)))), ∀ op ∈ ops, Proc.devRef .tc main_arg1 ∉ op.writes := by
  refine tail_all (P := fun op => Proc.devRef .tc main_arg1 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg2`. -/
theorem tail_keeps_main_arg2 : ∀ ops ∈ (tailOps : List (List (HloOp τ sig (Elt F)))), ∀ op ∈ ops, Proc.devRef .tc main_arg2 ∉ op.writes := by
  refine tail_all (P := fun op => Proc.devRef .tc main_arg2 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg3`. -/
theorem tail_keeps_main_arg3 : ∀ ops ∈ (tailOps : List (List (HloOp τ sig (Elt F)))), ∀ op ∈ ops, Proc.devRef .tc main_arg3 ∉ op.writes := by
  refine tail_all (P := fun op => Proc.devRef .tc main_arg3 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg4`. -/
theorem tail_keeps_main_arg4 : ∀ ops ∈ (tailOps : List (List (HloOp τ sig (Elt F)))), ∀ op ∈ ops, Proc.devRef .tc main_arg4 ∉ op.writes := by
  refine tail_all (P := fun op => Proc.devRef .tc main_arg4 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg5`. -/
theorem tail_keeps_main_arg5 : ∀ ops ∈ (tailOps : List (List (HloOp τ sig (Elt F)))), ∀ op ∈ ops, Proc.devRef .tc main_arg5 ∉ op.writes := by
  refine tail_all (P := fun op => Proc.devRef .tc main_arg5 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v0`. -/
theorem tail_keeps_main_v0 : ∀ ops ∈ (tailOps : List (List (HloOp τ sig (Elt F)))), ∀ op ∈ ops, Proc.devRef .tc main_v0 ∉ op.writes := by
  refine tail_all (P := fun op => Proc.devRef .tc main_v0 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v1`. -/
theorem tail_keeps_main_v1 : ∀ ops ∈ (tailOps : List (List (HloOp τ sig (Elt F)))), ∀ op ∈ ops, Proc.devRef .tc main_v1 ∉ op.writes := by
  refine tail_all (P := fun op => Proc.devRef .tc main_v1 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v2`. -/
theorem tail_keeps_main_v2 : ∀ ops ∈ (tailOps : List (List (HloOp τ sig (Elt F)))), ∀ op ∈ ops, Proc.devRef .tc main_v2 ∉ op.writes := by
  refine tail_all (P := fun op => Proc.devRef .tc main_v2 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v3`. -/
theorem tail_keeps_main_v3 : ∀ ops ∈ (tailOps : List (List (HloOp τ sig (Elt F)))), ∀ op ∈ ops, Proc.devRef .tc main_v3 ∉ op.writes := by
  refine tail_all (P := fun op => Proc.devRef .tc main_v3 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The lines after the region write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps_main_arg0 ops hops op hop
  · exact tail_keeps_main_arg1 ops hops op hop
  · exact tail_keeps_main_v0 ops hops op hop
  · exact tail_keeps_main_v1 ops hops op hop
  · exact tail_keeps_main_v2 ops hops op hop
  · exact tail_keeps_main_v3 ops hops op hop

/-! ## The arguments of @main before and after the region -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The four arguments that are no array of the call (the weight, the bias and the two index arrays) are bypassing
buffers: after the region they are what the later lines leave, and no later line writes them. -/

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact tail_keeps_main_arg2 ops hops op hop'),
    Pipeline.withArrays_of_ne _ c (V0 m c) _ main_arg2 (by exact (by decide : ∀ w, Pipeline.arrRef spec0 w ≠ main_arg2))]
  exact V_main_arg2 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact tail_keeps_main_arg3 ops hops op hop'),
    Pipeline.withArrays_of_ne _ c (V0 m c) _ main_arg3 (by exact (by decide : ∀ w, Pipeline.arrRef spec0 w ≠ main_arg3))]
  exact V_main_arg3 m c

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact tail_keeps_main_arg4 ops hops op hop'),
    Pipeline.withArrays_of_ne _ c (V0 m c) _ main_arg4 (by exact (by decide : ∀ w, Pipeline.arrRef spec0 w ≠ main_arg4))]
  exact V_main_arg4 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (fun op hop => by
      obtain ⟨ops, hops, hop'⟩ := List.mem_flatten.mp hop
      exact tail_keeps_main_arg5 ops hops op hop'),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
(the two embedding windows are fetched at every point, the weight halves and the bias column once: their block
index never moves), for any proof data whose array is the region-entry contents and whose body leaves the block in
place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data whose arrays are the region-entry contents, a final state in the library's frame post has the six
    arguments as launched: `main_arg0` and `main_arg1` are arrays of input windows, which the region hands back as found;
    the other four arguments are bypassing buffers no later line writes. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c)⟩

/-- So a run to the library's frame post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m dats hA r h c) h

/-! ## The body -/

/-- The whole block of each staging buffer: every load and the one store go through it. -/
abbrev rW : Rect S2x256 := Rect.unit (s := S2x256) ![0, 0] S2x256.size inb_S2x256_S2x256_0_0
abbrev rE : Rect S2048x256 := Rect.unit (s := S2048x256) ![0, 0] S2048x256.size inb_S2048x256_S2048x256_0_0
abbrev rB : Rect S2x1 := Rect.unit (s := S2x1) ![0, 0] S2x1.size inb_S2x1_S2x1_0_0
abbrev rO : Rect S4x2048 := Rect.unit (s := S4x2048) ![0, 0] S4x2048.size inb_S4x2048_S4x2048_0_0

/-- The output's staging buffer after the body, from the five input blocks: its one store, of the body's one value. -/
def out5 (x0 x1 : Vec F S2048x256 .f32) (x2 x3 : Vec F S2x256 .f32) (x4 : Vec F S2x1 .f32) : Vec F S4x2048 .f32 :=
  View.canon [⟨rO, k0_pay1 (View.ld x2 rW) (View.ld x0 rE) (View.ld x3 rW) (View.ld x1 rE) (View.ld x4 rB)⟩]

/-- The store covers the buffer. -/
theorem cover5 (p0 : Vec F S4x2048 .f32) (y : S4x2048.Idx) :
    ∃ pc ∈ ([⟨rO, p0⟩] : List (View.Piece (Elt F) S4x2048 .f32)), y ∈ pc.1.set :=
  View.cover_of_tiled [⟨rO, p0⟩] S4x2048.size (by rfl) y

set_option maxHeartbeats 1000000 in
/-- The body on whole staging memrefs, the inputs' at read contents and the output's at anything, runs to the
    continuation holding the inputs' as they were and the output's at `out5` of them. (The body also loads the output's
    buffer before storing over all of it; the loaded value is used by nothing.) -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2x256 .f32) (harg3 : arg3.IsWhole) (arg4 : Memref sig .tc .vmem S2x256 .f32) (harg4 : arg4.IsWhole)
    (arg5 : Memref sig .tc .vmem S2x1 .f32) (harg5 : arg5.IsWhole) (arg6 : Memref sig .tc .vmem S4x2048 .f32) (harg6 : arg6.IsWhole)
    (x0 x1 : Vec F S2048x256 .f32) (x2 x3 : Vec F S2x256 .f32) (x4 : Vec F S2x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t` each
    input's buffer at its block and the output's at `out5` of the five input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What the body leaves in the output's buffer at point `t`. -/
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault and the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.KIFrame.lean ====
/-
  The frame of `KernelIdeal`: the program is three host lines, one pallas_call on a grid of 16 points, and
  sixty-six host lines after it (a slice of the call's result into its two halves, two clamps of the index
  arrays, two takes, a sum and a transpose).  The pallas_call's body loads its five input blocks whole,
  computes one value and stores it over the whole output block, so after the body the output's staging
  buffer holds that value of the input blocks (`out5`) and every input's holds its block as found.
  With that as proof data the library's frame run around a region applies: the lines after the region
  touch only unscoped TensorCore buffers, allocate nothing and write none of the call's six arrays, and no
  line before or after the region writes an argument of @main, so every argument ends as launched.
  Everything here is at any float family `F`.
-/
import proofs.«412551_j8993661518510_3_alg».proof.Proof.Gen.KernelIdeal.Launch
import proofs.«412551_j8993661518510_3_alg».proof.Proof.Gen.KernelIdeal.Skeleton
import proofs.«412551_j8993661518510_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The TensorCore buffers when the region is entered: the three host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- A property of every line of every stretch after the region, from the property stretch by stretch. -/
theorem tail_all {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- @main is the host lines before the region, the region, and the seven stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  refine tail_all (P := fun op => op.bufs ⊆ _) ?_ ?_ ?_ ?_ ?_ ?_ ?_
  · exact List.forall_iff_forall_mem.mpr fun op hop => Pipeline.sub_ucRefs op ((List.forall_iff_forall_mem.mp hostOps1_sub) op hop)
  · exact List.forall_iff_forall_mem.mpr fun op hop => Pipeline.sub_ucRefs op ((List.forall_iff_forall_mem.mp hostOps1_1_sub) op hop)
  · exact List.forall_iff_forall_mem.mpr fun op hop => Pipeline.sub_ucRefs op ((List.forall_iff_forall_mem.mp hostOps1_2_sub) op hop)
  · exact List.forall_iff_forall_mem.mpr fun op hop => Pipeline.sub_ucRefs op ((List.forall_iff_forall_mem.mp hostOps1_3_sub) op hop)
  · exact List.forall_iff_forall_mem.mpr fun op hop => Pipeline.sub_ucRefs op ((List.forall_iff_forall_mem.mp hostOps1_4_sub) op hop)
  · exact List.forall_iff_forall_mem.mpr fun op hop => Pipeline.sub_ucRefs op ((List.forall_iff_forall_mem.mp hostOps1_5_sub) op hop)
  · exact List.forall_iff_forall_mem.mpr fun op hop => Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ :=
  tail_all hostOps1_fresh hostOps1_1_fresh hostOps1_2_fresh hostOps1_3_fresh hostOps1_4_fresh hostOps1_5_fresh hostOps1_6_fresh

/-! ## Which buffers the host lines write

Every host line writes its own result buffer and nothing else; none of those is an argument of @main or one of
the call's six arrays (`main_arg0`, `main_arg1`, the two weight halves `main_v0`, `main_v1`, the bias column
`main_v2` and the call's result `main_v3`). -/

/-- No host line after the region writes `main_arg0`. -/
theorem tail_keeps_main_arg0 : ∀ ops ∈ (tailOps : List (List (HloOp τ sig (Elt F)))), ∀ op ∈ ops, Proc.devRef .tc main_arg0 ∉ op.writes := by
  refine tail_all (P := fun op => Proc.devRef .tc main_arg0 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg1`. -/
theorem tail_keeps_main_arg1 : ∀ ops ∈ (tailOps : List (List (HloOp τ sig (Elt F)))), ∀ op ∈ ops, Proc.devRef .tc main_arg1 ∉ op.writes := by
  refine tail_all (P := fun op => Proc.devRef .tc main_arg1 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg2`. -/
theorem tail_keeps_main_arg2 : ∀ ops ∈ (tailOps : List (List (HloOp τ sig (Elt F)))), ∀ op ∈ ops, Proc.devRef .tc main_arg2 ∉ op.writes := by
  refine tail_all (P := fun op => Proc.devRef .tc main_arg2 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg3`. -/
theorem tail_keeps_main_arg3 : ∀ ops ∈ (tailOps : List (List (HloOp τ sig (Elt F)))), ∀ op ∈ ops, Proc.devRef .tc main_arg3 ∉ op.writes := by
  refine tail_all (P := fun op => Proc.devRef .tc main_arg3 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg4`. -/
theorem tail_keeps_main_arg4 : ∀ ops ∈ (tailOps : List (List (HloOp τ sig (Elt F)))), ∀ op ∈ ops, Proc.devRef .tc main_arg4 ∉ op.writes := by
  refine tail_all (P := fun op => Proc.devRef .tc main_arg4 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_arg5`. -/
theorem tail_keeps_main_arg5 : ∀ ops ∈ (tailOps : List (List (HloOp τ sig (Elt F)))), ∀ op ∈ ops, Proc.devRef .tc main_arg5 ∉ op.writes := by
  refine tail_all (P := fun op => Proc.devRef .tc main_arg5 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v0`. -/
theorem tail_keeps_main_v0 : ∀ ops ∈ (tailOps : List (List (HloOp τ sig (Elt F)))), ∀ op ∈ ops, Proc.devRef .tc main_v0 ∉ op.writes := by
  refine tail_all (P := fun op => Proc.devRef .tc main_v0 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v1`. -/
theorem tail_keeps_main_v1 : ∀ ops ∈ (tailOps : List (List (HloOp τ sig (Elt F)))), ∀ op ∈ ops, Proc.devRef .tc main_v1 ∉ op.writes := by
  refine tail_all (P := fun op => Proc.devRef .tc main_v1 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v2`. -/
theorem tail_keeps_main_v2 : ∀ ops ∈ (tailOps : List (List (HloOp τ sig (Elt F)))), ∀ op ∈ ops, Proc.devRef .tc main_v2 ∉ op.writes := by
  refine tail_all (P := fun op => Proc.devRef .tc main_v2 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host line after the region writes `main_v3`. -/
theorem tail_keeps_main_v3 : ∀ ops ∈ (tailOps : List (List (HloOp τ sig (Elt F)))), ∀ op ∈ ops, Proc.devRef .tc main_v3 ∉ op.writes := by
  refine tail_all (P := fun op => Proc.devRef .tc main_v3 ∉ op.writes) ?_ ?_ ?_ ?_ ?_ ?_ ?_
  all_goals
    simp only [hostOps1, hostOps1_1, hostOps1_2, hostOps1_3, hostOps1_4, hostOps1_5, hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The lines after the region write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps_main_arg0 ops hops op hop
  · exact tail_keeps_main_arg1 ops hops op hop
  · exact tail_keeps_main_v0 ops hops op hop
  · exact tail_keeps_main_v1 ops hops op hop
  · exact tail_keeps_main_v2 ops hops op hop
  · exact tail_keeps_main_v3 ops hops op hop

/-! ## The arguments of @main before and after the region -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The four arguments that are no array of the call (the weight, the bias and the two index arrays) are bypassing
buffers: after the region they are what the later lines leave, and no later line writes them. -/

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact tail_keeps_main_arg2 ops hops op hop'),
    Pipeline.withArrays_of_ne _ c (V0 m c) _ main_arg2 (by exact (by decide : ∀ w, Pipeline.arrRef spec0 w ≠ main_arg2))]
  exact V_main_arg2 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact tail_keeps_main_arg3 ops hops op hop'),
    Pipeline.withArrays_of_ne _ c (V0 m c) _ main_arg3 (by exact (by decide : ∀ w, Pipeline.arrRef spec0 w ≠ main_arg3))]
  exact V_main_arg3 m c

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact tail_keeps_main_arg4 ops hops op hop'),
    Pipeline.withArrays_of_ne _ c (V0 m c) _ main_arg4 (by exact (by decide : ∀ w, Pipeline.arrRef spec0 w ≠ main_arg4))]
  exact V_main_arg4 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (fun op hop => by
      obtain ⟨ops, hops, hop'⟩ := List.mem_flatten.mp hop
      exact tail_keeps_main_arg5 ops hops op hop'),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
(the two embedding windows are fetched at every point, the weight halves and the bias column once: their block
index never moves), for any proof data whose array is the region-entry contents and whose body leaves the block in
place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data whose arrays are the region-entry contents, a final state in the library's frame post has the six
    arguments as launched: `main_arg0` and `main_arg1` are arrays of input windows, which the region hands back as found;
    the other four arguments are bypassing buffers no later line writes. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c)⟩

/-- So a run to the library's frame post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m dats hA r h c) h

/-! ## The body -/

/-- The whole block of each staging buffer: every load and the one store go through it. -/
abbrev rW : Rect S2x256 := Rect.unit (s := S2x256) ![0, 0] S2x256.size inb_S2x256_S2x256_0_0
abbrev rE : Rect S2048x256 := Rect.unit (s := S2048x256) ![0, 0] S2048x256.size inb_S2048x256_S2048x256_0_0
abbrev rB : Rect S2x1 := Rect.unit (s := S2x1) ![0, 0] S2x1.size inb_S2x1_S2x1_0_0
abbrev rO : Rect S4x2048 := Rect.unit (s := S4x2048) ![0, 0] S4x2048.size inb_S4x2048_S4x2048_0_0

/-- The output's staging buffer after the body, from the five input blocks: its one store, of the body's one value. -/
def out5 (x0 x1 : Vec F S2048x256 .f32) (x2 x3 : Vec F S2x256 .f32) (x4 : Vec F S2x1 .f32) : Vec F S4x2048 .f32 :=
  View.canon [⟨rO, k0_pay1 (View.ld x2 rW) (View.ld x0 rE) (View.ld x3 rW) (View.ld x1 rE) (View.ld x4 rB)⟩]

/-- The store covers the buffer. -/
theorem cover5 (p0 : Vec F S4x2048 .f32) (y : S4x2048.Idx) :
    ∃ pc ∈ ([⟨rO, p0⟩] : List (View.Piece (Elt F) S4x2048 .f32)), y ∈ pc.1.set :=
  View.cover_of_tiled [⟨rO, p0⟩] S4x2048.size (by rfl) y

set_option maxHeartbeats 1000000 in
/-- The body on whole staging memrefs, the inputs' at read contents and the output's at anything, runs to the
    continuation holding the inputs' as they were and the output's at `out5` of them. (The body also loads the output's
    buffer before storing over all of it; the loaded value is used by nothing.) -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2x256 .f32) (harg3 : arg3.IsWhole) (arg4 : Memref sig .tc .vmem S2x256 .f32) (harg4 : arg4.IsWhole)
    (arg5 : Memref sig .tc .vmem S2x1 .f32) (harg5 : arg5.IsWhole) (arg6 : Memref sig .tc .vmem S4x2048 .f32) (harg6 : arg6.IsWhole)
    (x0 x1 : Vec F S2048x256 .f32) (x2 x3 : Vec F S2x256 .f32) (x4 : Vec F S2x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t` each
    input's buffer at its block and the output's at `out5` of the five input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What the body leaves in the output's buffer at point `t`. -/
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault and the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.Spec.lean ====
/-
  The function both programs compute.  `e`, `et` are the two [32768, 256] embedding tables, `w` the [2, 512] weight
  (its first 256 columns act on `e`, its last 256 on `et`), `b` the bias, `ii`, `jj` the two index arrays of
  512512 pairs.  Per utterance `n` and class `k` the two projections are

      projI k n = (∑ d, w[k, d] · e[n, d]) + b[k]          projJ k n = ∑ d, w[k, 256 + d] · et[n, d]

  and pair `p`'s logit for class `k` is `projI k (row ii[p]) + projJ k (row jj[p])`, where `row x` reads the
  32-bit word `x` as a signed integer clamped into [0, 32767].  All arithmetic is on the extended reals.
-/
import Idealize.ShloMosaic.PureOps.Ideal
import Idealize.ShloMosaic.Lib.ValueIdx

noncomputable section

open scoped BigOperators

namespace Cert.Spec

open Idealize.ShloMosaic Idealize.ShloMosaic.ValueIdx

abbrev SE : Shape := ⟨2, ![32768, 256]⟩
abbrev SW : Shape := ⟨2, ![2, 512]⟩
abbrev SB : Shape := ⟨1, ![2]⟩
abbrev SI : Shape := ⟨1, ![512512]⟩
abbrev ST : Shape := ⟨2, ![4, 32768]⟩
abbrev SO : Shape := ⟨2, ![512512, 2]⟩

/-- The table row a start index reads: the word read signed, clamped into [0, 32767]. -/
def row (x : BitVec 32) : Fin 32768 := ⟨min x.toInt.toNat 32767, by omega⟩

/-- The weight's first half at (k, d). -/
def wI (w : SW.Idx → EReal) (k : Fin 2) (d : Fin 256) : EReal := w (ix2 k (⟨d.val, by have := d.isLt; omega⟩ : Fin 512))
/-- The weight's second half at (k, d). -/
def wJ (w : SW.Idx → EReal) (k : Fin 2) (d : Fin 256) : EReal := w (ix2 k (⟨256 + d.val, by have := d.isLt; omega⟩ : Fin 512))

/-- Utterance `n`'s projection through the first half of the weight, with the bias. -/
def projI (e : SE.Idx → EReal) (w : SW.Idx → EReal) (b : SB.Idx → EReal) (k : Fin 2) (n : Fin 32768) : EReal :=
  (∑ d : Fin 256, wI w k d * e (ix2 n d)) + b (ix1 k)
/-- Utterance `n`'s projection through the second half of the weight. -/
def projJ (et : SE.Idx → EReal) (w : SW.Idx → EReal) (k : Fin 2) (n : Fin 32768) : EReal :=
  ∑ d : Fin 256, wJ w k d * et (ix2 n d)

/-- The [4, 32768] table the pallas_call writes: rows 0 and 1 are `projI`, rows 2 and 3 `projJ`. -/
def table (e et : SE.Idx → EReal) (w : SW.Idx → EReal) (b : SB.Idx → EReal) : ST.Idx → EReal := fun j =>
  if h : (j 0).val < 2 then projI e w b ⟨(j 0).val, h⟩ ⟨(j 1).val, idx2_lt1 j⟩
  else projJ et w ⟨(j 0).val - 2, by have := idx2_lt0 j; omega⟩ ⟨(j 1).val, idx2_lt1 j⟩

/-- The result: pair `p`'s logit for class `k`. -/
def logits (e et : SE.Idx → EReal) (w : SW.Idx → EReal) (b : SB.Idx → EReal) (ii jj : SI.Idx → BitVec 32) : SO.Idx → EReal := fun y =>
  projI e w b ⟨(y 1).val, idx2_lt1 y⟩ (row (ii (ix1 ⟨(y 0).val, idx2_lt0 y⟩)))
    + projJ et w ⟨(y 1).val, idx2_lt1 y⟩ (row (jj (ix1 ⟨(y 0).val, idx2_lt0 y⟩)))

/-- Two entries of a [4, 32768] table summed: for pair `p` and class `k`, row `k` at the column `ii[p]` names and row
    `2 + k` at the column `jj[p]` names. -/
def pick (Y : ST.Idx → EReal) (ii jj : SI.Idx → BitVec 32) : SO.Idx → EReal := fun y =>
  Y (ix2 (⟨(y 1).val, by have := idx2_lt1 y; omega⟩ : Fin 4) (row (ii (ix1 ⟨(y 0).val, idx2_lt0 y⟩))))
    + Y (ix2 (⟨2 + (y 1).val, by have := idx2_lt1 y; omega⟩ : Fin 4) (row (jj (ix1 ⟨(y 0).val, idx2_lt0 y⟩))))

/-- Picking from the projections' table gives the logits: rows 0, 1 of the table are `projI`, rows 2, 3 `projJ`. -/
theorem pick_table (e et : SE.Idx → EReal) (w : SW.Idx → EReal) (b : SB.Idx → EReal) (ii jj : SI.Idx → BitVec 32) :
    pick (table e et w b) ii jj = logits e et w b ii jj := by
  funext y
  have h1 : (y 1).val < 2 := idx2_lt1 y
  unfold pick logits table
  dsimp only
  rw [dif_pos (show (y 1).val < 2 from h1), dif_neg (show ¬ (2 + (y 1).val < 2) by omega)]
  congr 2
  exact Fin.ext (by show 2 + (y 1).val - 2 = (y 1).val; omega)

end Cert.Spec

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KIValue.lean ====
/-
  What the pallas_call's result array holds after the run, index by index.  At grid point `t` the body loads the first
  weight half W_i [2, 256], the embedding block E [2048, 256] (rows t·2048 … t·2048 + 2047 of `embeds`), the second weight
  half W_j, the block ET of `embeds_temp` and the bias column B [2, 1], and stores the [4, 2048] block whose rows 0, 1 are
  W_i · Eᵀ + B (both matrix products contract the LAST axis of both operands) and rows 2, 3 are W_j · ETᵀ.  Read at
  (r, q) that is ∑ d, W_i[r, d] · E[q, d] + B[r, 0] for r < 2 and ∑ d, W_j[r − 2, d] · ET[q, d] otherwise: the
  specification's `table` at (r, t·2048 + q).  The sixteen blocks tile the [4, 32768] array, so after the run the array
  is `table`.
-/
import proofs.«412551_j8993661518510_3_alg».proof.Proof.KIFrame
import proofs.«412551_j8993661518510_3_alg».proof.Proof.Spec
import proofs.«412551_j8993661518510_3_alg».proof.Proof.LibKeepdims
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat Cfg Window)

/-! ## The body's matrix product at an index

The product's dimension numbers contract axis 1 of both operands; the output's axis 0 is the left operand's axis 0
and its axis 1 the right operand's axis 0. -/

theorem lhs_mm_0 (i : S2x2048.Idx) (q : dot_S2x256_S2048x256_S2x2048_1_1_0_0_n_n.contr.Idx) :
    (dot_S2x256_S2048x256_S2x2048_1_1_0_0_n_n.lhsIdx i q 0).val = (i 0).val := by
  unfold DotDims.lhsIdx
  rw [dif_neg (show ¬(0 : Fin S2x256.rank) ∈ dot_S2x256_S2048x256_S2x2048_1_1_0_0_n_n.lhsBatch by decide), dif_pos (show (0 : Fin S2x256.rank) ∈ dot_S2x256_S2048x256_S2x2048_1_1_0_0_n_n.lhsNonContracting by decide)]
  rfl
theorem lhs_mm_1 (i : S2x2048.Idx) (q : dot_S2x256_S2048x256_S2x2048_1_1_0_0_n_n.contr.Idx) :
    (dot_S2x256_S2048x256_S2x2048_1_1_0_0_n_n.lhsIdx i q 1).val = (q ⟨0, by decide⟩).val :=
  dot_S2x256_S2048x256_S2x2048_1_1_0_0_n_n.lhsIdx_val_of_single rfl i q
theorem rhs_mm_0 (i : S2x2048.Idx) (q : dot_S2x256_S2048x256_S2x2048_1_1_0_0_n_n.contr.Idx) :
    (dot_S2x256_S2048x256_S2x2048_1_1_0_0_n_n.rhsIdx i q 0).val = (i 1).val := by
  unfold DotDims.rhsIdx
  rw [dif_neg (show ¬(0 : Fin S2048x256.rank) ∈ dot_S2x256_S2048x256_S2x2048_1_1_0_0_n_n.rhsBatch by decide), dif_pos (show (0 : Fin S2048x256.rank) ∈ dot_S2x256_S2048x256_S2x2048_1_1_0_0_n_n.rhsNonContracting by decide)]
  rfl
theorem rhs_mm_1 (i : S2x2048.Idx) (q : dot_S2x256_S2048x256_S2x2048_1_1_0_0_n_n.contr.Idx) :
    (dot_S2x256_S2048x256_S2x2048_1_1_0_0_n_n.rhsIdx i q 1).val = (q ⟨0, by decide⟩).val :=
  dot_S2x256_S2048x256_S2x2048_1_1_0_0_n_n.rhsIdx_val_of_single rfl i q

/-- The product into the zero accumulator at (a, q): the sum over the shared last axis. -/
theorem mm_apply (l : FVec Ideal S2x256 .f32) (r : FVec Ideal S2048x256 .f32) (a : Fin 2) (q : Fin 2048) :
    matmul dot_S2x256_S2048x256_S2x2048_1_1_0_0_n_n none l r (constant (F := Ideal) S2x2048 .f32 0x00000000#32) (ix2 a q)
      = ∑ d : Fin 256, l (ix2 a d) * r (ix2 q d) := by
  simp only [matmul]
  rw [Ideal.matmul_constant_zero_apply, ← Equiv.sum_comp (ValueIdx.contrEquiv1 dot_S2x256_S2048x256_S2x2048_1_1_0_0_n_n 256 rfl rfl).symm]
  refine Finset.sum_congr rfl fun k _ => ?_
  have hk := ValueIdx.contrEquiv1_symm_val dot_S2x256_S2048x256_S2x2048_1_1_0_0_n_n 256 rfl rfl k
  have el : dot_S2x256_S2048x256_S2x2048_1_1_0_0_n_n.lhsIdx (ix2 a q) ((ValueIdx.contrEquiv1 dot_S2x256_S2048x256_S2x2048_1_1_0_0_n_n 256 rfl rfl).symm k) = ix2 a k := funext fun b => Fin.ext (by
    match b with
    | ⟨0, _⟩ => exact lhs_mm_0 _ _
    | ⟨1, _⟩ => exact (lhs_mm_1 _ _).trans hk)
  have er : dot_S2x256_S2048x256_S2x2048_1_1_0_0_n_n.rhsIdx (ix2 a q) ((ValueIdx.contrEquiv1 dot_S2x256_S2048x256_S2x2048_1_1_0_0_n_n 256 rfl rfl).symm k) = ix2 q k := funext fun b => Fin.ext (by
    match b with
    | ⟨0, _⟩ => exact rhs_mm_0 _ _
    | ⟨1, _⟩ => exact (rhs_mm_1 _ _).trans hk)
  rw [el, er]

/-! ## The body's value at an index -/

/-- Rows 0 and 1 of the stored block: the first product plus the bias column. -/
theorem pay_top (v0 v4 : Vec Ideal S2x256 .f32) (v2 v6 : Vec Ideal S2048x256 .f32) (v8 : Vec Ideal S2x1 .f32) (a : Fin 2) (q : Fin 2048) :
    k0_pay1 (F := Ideal) v0 v2 v4 v6 v8 (ix2 (⟨a.val, by have := a.isLt; omega⟩ : Fin 4) q)
      = (∑ d : Fin 256, v0 (ix2 a d) * v2 (ix2 q d)) + v8 (ix2 a (0 : Fin 1)) := by
  unfold k0_pay1
  refine (concatenate_pair_apply_left (0 : Fin S4x2048.rank) _ _ concatenates_S2x2048_S2x2048_S4x2048_d0 _ rfl (ix2 a q) (fun b => by
    match b with
    | ⟨0, _⟩ => rfl
    | ⟨1, _⟩ => rfl)).trans ?_
  rw [addf_apply, shapeCast_self, shapeCast_self, mm_apply, Cert.Lib.broadcastTo_a1_ab_apply]

/-- Rows 2 and 3 of the stored block: the second product. -/
theorem pay_bot (v0 v4 : Vec Ideal S2x256 .f32) (v2 v6 : Vec Ideal S2048x256 .f32) (v8 : Vec Ideal S2x1 .f32) (a : Fin 2) (q : Fin 2048) :
    k0_pay1 (F := Ideal) v0 v2 v4 v6 v8 (ix2 (⟨2 + a.val, by have := a.isLt; omega⟩ : Fin 4) q)
      = ∑ d : Fin 256, v4 (ix2 a d) * v6 (ix2 q d) := by
  unfold k0_pay1
  refine (concatenate_pair_apply_right (0 : Fin S4x2048.rank) _ _ concatenates_S2x2048_S2x2048_S4x2048_d0 _ rfl rfl (ix2 a q) (fun b hb => by
    match b with
    | ⟨0, _⟩ => exact absurd rfl hb
    | ⟨1, _⟩ => rfl) (by show a.val + 2 = 2 + a.val; omega)).trans ?_
  rw [shapeCast_self, mm_apply]

/-! ## The arrays the region finds, at an index -/

variable (m : (ℓ : Loc nD τ sig) → Buf (Elt Ideal) ℓ)

/-- The first weight half, as the host line before the region leaves it: columns 0 … 255 of the weight. -/
theorem V_v0_apply (c : Dev nD) (a : Fin 2) (d : Fin 256) :
    V m c main_v0 (ix2 a d) = Cert.Spec.wI (m ((c : Thread nD τ).loc main_arg2)) a d := by
  have e : (V m c main_v0 : S2x256.Idx → EReal)
      = extractStridedSlice S2x256 ![0, 0] (m ((c : Thread nD τ).loc main_arg2)) slices_S2x512_S2x256_0_0 := by
    show StableHlo.after hostOps0 (fun b => m (c, b)) (Proc.devRef .tc main_v0) = _
    after_results
  rw [e]
  unfold Cert.Spec.wI
  exact extractStridedSlice_apply ![0, 0] (m ((c : Thread nD τ).loc main_arg2) : S2x512.Idx → EReal) slices_S2x512_S2x256_0_0 (ix2 a d) (ix2 a (⟨d.val, by have := d.isLt; omega⟩ : Fin 512)) (fun b => by
    match b with
    | ⟨0, _⟩ => show a.val = 0 + a.val; omega
    | ⟨1, _⟩ => show d.val = 0 + d.val; omega)

/-- The second weight half: columns 256 … 511 of the weight. -/
theorem V_v1_apply (c : Dev nD) (a : Fin 2) (d : Fin 256) :
    V m c main_v1 (ix2 a d) = Cert.Spec.wJ (m ((c : Thread nD τ).loc main_arg2)) a d := by
  have e : (V m c main_v1 : S2x256.Idx → EReal)
      = extractStridedSlice S2x256 ![0, 256] (m ((c : Thread nD τ).loc main_arg2)) slices_S2x512_S2x256_0_256 := by
    show StableHlo.after hostOps0 (fun b => m (c, b)) (Proc.devRef .tc main_v1) = _
    after_results
  rw [e]
  unfold Cert.Spec.wJ
  exact extractStridedSlice_apply ![0, 256] (m ((c : Thread nD τ).loc main_arg2) : S2x512.Idx → EReal) slices_S2x512_S2x256_0_256 (ix2 a d) (ix2 a (⟨256 + d.val, by have := d.isLt; omega⟩ : Fin 512)) (fun b => by
    match b with
    | ⟨0, _⟩ => show a.val = 0 + a.val; omega
    | ⟨1, _⟩ => show 256 + d.val = 256 + d.val; omega)

/-- The bias as a column: entry (a, 0) is the bias's entry a. -/
theorem V_v2_apply (c : Dev nD) (a : Fin 2) :
    V m c main_v2 (ix2 a (0 : Fin 1)) = m ((c : Thread nD τ).loc main_arg3) (ix1 a) := by
  have e : (V m c main_v2 : S2x1.Idx → EReal)
      = shapeCast S2x1 (m ((c : Thread nD τ).loc main_arg3)) shapeCasts_S2_S2x1 := by
    show StableHlo.after hostOps0 (fun b => m (c, b)) (Proc.devRef .tc main_v2) = _
    after_results
    all_goals rfl
  rw [e]
  exact Cert.Lib.shapeCast_a_a1_apply (m ((c : Thread nD τ).loc main_arg3) : S2.Idx → EReal) shapeCasts_S2_S2x1 a 0

/-! ## The windows' blocks at a point -/

theorem hz : (![0, 0] : Fin 2 → Nat) = fun _ => 0 := funext fun a => by fin_cases a <;> rfl

/-- The printed index maps over the grid: the two embedding windows move along their rows with the point, the weight
    halves and the bias column stay, and the output moves along its columns with the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem t_lt (t : Fin cfg0.N) : t.val < 16 := by
  have h := t.isLt
  have hN : cfg0.N = 16 := N_0
  omega

/-- The embedding block at point `t`: rows t·2048 … of `embeds`. -/
theorem blk0_apply (c : Dev nD) (t : Fin cfg0.N) (q : Fin 2048) (d : Fin 256) :
    iblk m c 0 t (ix2 q d)
      = m ((c : Thread nD τ).loc main_arg0) (ix2 (⟨t.val * 2048 + q.val, by have := t_lt t; have := q.isLt; omega⟩ : Fin 32768) d) := by
  show V m c main_arg0 (((cfg0.win 0).blk t).view.emb (ix2 q d)) = _
  rw [V_main_arg0]
  obtain ⟨e0, e1, -⟩ := idx_facts t
  refine congrArg _ (funext fun a => Fin.ext ?_)
  match a with
  | ⟨0, _⟩ => show win0_0.index t (0 : Fin 2) * 2048 + 1 * q.val = t.val * 2048 + q.val; omega
  | ⟨1, _⟩ => show win0_0.index t (1 : Fin 2) * 256 + 1 * d.val = d.val; omega

/-- The block of `embeds_temp` at point `t`. -/
theorem blk1_apply (c : Dev nD) (t : Fin cfg0.N) (q : Fin 2048) (d : Fin 256) :
    iblk m c 1 t (ix2 q d)
      = m ((c : Thread nD τ).loc main_arg1) (ix2 (⟨t.val * 2048 + q.val, by have := t_lt t; have := q.isLt; omega⟩ : Fin 32768) d) := by
  show V m c main_arg1 (((cfg0.win 1).blk t).view.emb (ix2 q d)) = _
  rw [V_main_arg1]
  obtain ⟨-, -, e0, e1, -⟩ := idx_facts t
  refine congrArg _ (funext fun a => Fin.ext ?_)
  match a with
  | ⟨0, _⟩ => show win0_1.index t (0 : Fin 2) * 2048 + 1 * q.val = t.val * 2048 + q.val; omega
  | ⟨1, _⟩ => show win0_1.index t (1 : Fin 2) * 256 + 1 * d.val = d.val; omega

/-- The first weight half's block is the whole half at every point. -/
theorem blk2_apply (c : Dev nD) (t : Fin cfg0.N) (a : Fin 2) (d : Fin 256) :
    iblk m c 2 t (ix2 a d) = Cert.Spec.wI (m ((c : Thread nD τ).loc main_arg2)) a d := by
  show V m c main_v0 (((cfg0.win 2).blk t).view.emb (ix2 a d)) = _
  rw [← V_v0_apply]
  obtain ⟨-, -, -, -, e0, e1, -⟩ := idx_facts t
  refine congrArg _ (funext fun b => Fin.ext ?_)
  match b with
  | ⟨0, _⟩ => show win0_2.index t (0 : Fin 2) * 2 + 1 * a.val = a.val; omega
  | ⟨1, _⟩ => show win0_2.index t (1 : Fin 2) * 256 + 1 * d.val = d.val; omega

/-- So is the second weight half's. -/
theorem blk3_apply (c : Dev nD) (t : Fin cfg0.N) (a : Fin 2) (d : Fin 256) :
    iblk m c 3 t (ix2 a d) = Cert.Spec.wJ (m ((c : Thread nD τ).loc main_arg2)) a d := by
  show V m c main_v1 (((cfg0.win 3).blk t).view.emb (ix2 a d)) = _
  rw [← V_v1_apply]
  obtain ⟨-, -, -, -, -, -, e0, e1, -⟩ := idx_facts t
  refine congrArg _ (funext fun b => Fin.ext ?_)
  match b with
  | ⟨0, _⟩ => show win0_3.index t (0 : Fin 2) * 2 + 1 * a.val = a.val; omega
  | ⟨1, _⟩ => show win0_3.index t (1 : Fin 2) * 256 + 1 * d.val = d.val; omega

/-- The bias column's block is the whole column at every point. -/
theorem blk4_apply (c : Dev nD) (t : Fin cfg0.N) (a : Fin 2) :
    iblk m c 4 t (ix2 a (0 : Fin 1)) = m ((c : Thread nD τ).loc main_arg3) (ix1 a) := by
  refine Eq.trans ?_ (V_v2_apply m c a)
  show V m c main_v2 (((cfg0.win 4).blk t).view.emb (ix2 a (0 : Fin 1))) = _
  obtain ⟨-, -, -, -, -, -, -, -, e0, e1, -⟩ := idx_facts t
  refine congrArg _ (funext fun b => Fin.ext ?_)
  match b with
  | ⟨0, _⟩ => show win0_4.index t (0 : Fin 2) * 2 + 1 * a.val = a.val; omega
  | ⟨1, _⟩ => show win0_4.index t (1 : Fin 2) * 1 + 1 * 0 = 0; omega

/-! ## From the blocks to the array -/

/-- The stored block's rows 0, 1 at point `t` are the table's rows 0, 1 at the block's columns. -/
theorem blk_top (c : Dev nD) (t : Fin cfg0.N) (a : Fin 2) (q : Fin 2048) :
    k0_pay1 (F := Ideal) (iblk m c 2 t) (iblk m c 0 t) (iblk m c 3 t) (iblk m c 1 t) (iblk m c 4 t) (ix2 (⟨a.val, by have := a.isLt; omega⟩ : Fin 4) q)
      = Cert.Spec.table (m ((c : Thread nD τ).loc main_arg0)) (m ((c : Thread nD τ).loc main_arg1))
          (m ((c : Thread nD τ).loc main_arg2)) (m ((c : Thread nD τ).loc main_arg3))
          (ix2 (⟨a.val, by have := a.isLt; omega⟩ : Fin 4) (⟨t.val * 2048 + q.val, by have := t_lt t; have := q.isLt; omega⟩ : Fin 32768)) := by
  unfold Cert.Spec.table
  rw [dif_pos (show a.val < 2 from a.isLt), pay_top]
  unfold Cert.Spec.projI
  rw [blk4_apply]
  refine congrArg (· + _) (Finset.sum_congr rfl fun d _ => ?_)
  rw [blk2_apply, blk0_apply]

/-- The stored block's rows 2, 3 at point `t` are the table's rows 2, 3 at the block's columns. -/
theorem blk_bot (c : Dev nD) (t : Fin cfg0.N) (a : Fin 2) (q : Fin 2048) :
    k0_pay1 (F := Ideal) (iblk m c 2 t) (iblk m c 0 t) (iblk m c 3 t) (iblk m c 1 t) (iblk m c 4 t) (ix2 (⟨2 + a.val, by have := a.isLt; omega⟩ : Fin 4) q)
      = Cert.Spec.table (m ((c : Thread nD τ).loc main_arg0)) (m ((c : Thread nD τ).loc main_arg1))
          (m ((c : Thread nD τ).loc main_arg2)) (m ((c : Thread nD τ).loc main_arg3))
          (ix2 (⟨2 + a.val, by have := a.isLt; omega⟩ : Fin 4) (⟨t.val * 2048 + q.val, by have := t_lt t; have := q.isLt; omega⟩ : Fin 32768)) := by
  unfold Cert.Spec.table
  rw [dif_neg (show ¬ (2 + a.val < 2) by omega), pay_bot]
  unfold Cert.Spec.projJ
  have ea : (⟨2 + a.val - 2, by have := a.isLt; omega⟩ : Fin 2) = a := Fin.ext (by show 2 + a.val - 2 = a.val; omega)
  show _ = ∑ d : Fin 256, Cert.Spec.wJ _ (⟨2 + a.val - 2, _⟩ : Fin 2) d * _
  rw [ea]
  refine Finset.sum_congr rfl fun d _ => ?_
  rw [blk3_apply, blk1_apply]

/-- What point `t` writes back is block `t` of the specification's table of the arguments. -/
theorem flushed_eq (c : Dev nD) (t : Fin cfg0.N) :
    (dats m 0 c).flushed 5 t = ((cfg0.win 5).blk t).view.read (Elt Ideal)
      (Cert.Spec.table (m ((c : Thread nD τ).loc main_arg0)) (m ((c : Thread nD τ).loc main_arg1))
        (m ((c : Thread nD τ).loc main_arg2)) (m ((c : Thread nD τ).loc main_arg3))) := by
  show (cfg0.win 5).cut (grid0.coords t) ((dats m 0 c).after 5 t) = _
  rw [after_5]
  unfold out5
  rw [View.canon_unit_zero hz]
  simp only [View.ld_unit_zero (S := S2x256) hz, View.ld_unit_zero (S := S2048x256) hz, View.ld_unit_zero (S := S2x1) hz]
  obtain ⟨-, -, -, -, -, -, -, -, -, -, e0, e1⟩ := idx_facts t
  funext j
  obtain ⟨r, q, rfl⟩ : ∃ (r : Fin 4) (q : Fin 2048), j = ix2 r q := ⟨j 0, j 1, eq_ix2 j⟩
  show k0_pay1 (F := Ideal) (iblk m c 2 t) (iblk m c 0 t) (iblk m c 3 t) (iblk m c 1 t) (iblk m c 4 t) (ix2 r q)
    = Cert.Spec.table _ _ _ _ (((cfg0.win 5).blk t).view.emb (ix2 r q))
  have hemb : ((cfg0.win 5).blk t).view.emb (ix2 r q)
      = ix2 r (⟨t.val * 2048 + q.val, by have := t_lt t; have := q.isLt; omega⟩ : Fin 32768) := by
    funext b; apply Fin.ext
    match b with
    | ⟨0, _⟩ => show win0_5.index t (0 : Fin 2) * 4 + 1 * r.val = r.val; omega
    | ⟨1, _⟩ => show win0_5.index t (1 : Fin 2) * 2048 + 1 * q.val = t.val * 2048 + q.val; omega
  rw [hemb]
  by_cases h : r.val < 2
  · have hr : r = (⟨(⟨r.val, h⟩ : Fin 2).val, by omega⟩ : Fin 4) := Fin.ext rfl
    rw [hr]
    exact blk_top m c t ⟨r.val, h⟩ q
  · have hlt : r.val - 2 < 2 := by have := r.isLt; omega
    have hr : r = (⟨2 + (⟨r.val - 2, hlt⟩ : Fin 2).val, by have := r.isLt; omega⟩ : Fin 4) :=
      Fin.ext (by show r.val = 2 + (r.val - 2); omega)
    rw [hr]
    exact blk_bot m c t ⟨r.val - 2, hlt⟩ q
/-- An index of the array is in point `t`'s block iff each coordinate is in the block's range on its axis. -/
theorem mem_blk (t : Fin cfg0.N) (i : S4x32768.Idx) :
    i ∈ ((cfg0.win 5).blk t).view.set ↔ ∀ a : Fin 2, win0_5.index t a * S4x2048.size a ≤ (i a).val ∧ (i a).val < win0_5.index t a * S4x2048.size a + S4x2048.size a := by
  show i ∈ ((View.whole main_v3).slice (win0_5.rect t)).set ↔ _
  rw [View.set_slice_whole, Rect.mem_set_unit]
  exact Iff.rfl

/-- Every index of the array lies in the block of the point its column falls in. -/
theorem cover (i : S4x32768.Idx) : ∃ t : Fin cfg0.N, (cfg0.win 5).flush t = true ∧ i ∈ ((cfg0.win 5).blk t).view.set := by
  have hi0 : (i 0).val < 4 := (i 0).isLt
  have hi1 : (i 1).val < 32768 := (i 1).isLt
  have hN : cfg0.N = 16 := N_0
  let t : Fin cfg0.N := ⟨(i 1).val / 2048, by omega⟩
  refine ⟨t, flush0_5 t, ?_⟩
  rw [mem_blk]
  obtain ⟨-, -, -, -, -, -, -, -, -, -, e0, e1⟩ := idx_facts t
  have tv : t.val = (i 1).val / 2048 := rfl
  intro a
  match a with
  | ⟨0, _⟩ => show win0_5.index t (0 : Fin 2) * 4 ≤ (i 0).val ∧ (i 0).val < win0_5.index t (0 : Fin 2) * 4 + 4; omega
  | ⟨1, _⟩ => show win0_5.index t (1 : Fin 2) * 2048 ≤ (i 1).val ∧ (i 1).val < win0_5.index t (1 : Fin 2) * 2048 + 2048; omega

/-- After the run the call's result array is the specification's table of the arguments. -/
theorem final5 (c : Dev nD) : (dats m 0 c).arrAt 5 cfg0.N
    = Cert.Spec.table (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed_eq m c t) (cover)

end Cert.KernelIdeal.Val

end
-- ==== Proof.LibGather2.lean ====
/-
  `stablehlo.gather` of a rank-2 operand along ONE of its axes at a column [P, 1] of start indices, read at an index:
  what `x[idx]` (rows of an [N, C] table; `gather_rows_apply`) and `jnp.take(x, idx, axis=1)` (columns of a [C, N]
  table; `gather_cols_apply`) lower to.  The gathered axis is collapsed and start-indexed, the other axis is the one
  offset axis with a whole slice, the index vector sits on axis 1 of the start indices, nothing is batched.  The
  result element reads the operand at the start index read as a SIGNED integer and clamped into [0, N − 1], as
  StableHLO's gather clamps every start index.
-/
import Idealize.ShloMosaic.PureOps
import Idealize.ShloMosaic.Lib.ValueIdx

noncomputable section

namespace Cert.LibGather2

open Idealize.ShloMosaic Idealize.ShloMosaic.ValueIdx

variable {α : Type}

/-- Rows of an [N, C] table at a column of start indices: result (p, c) is the table at (clamp idx[p, 0], c). -/
theorem gather_rows_apply {N C P w : Nat} (hN : 0 < N)
    (d : GatherDims ⟨2, ![N, C]⟩ ⟨2, ![P, 1]⟩ ⟨2, ![P, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ w) (p : Fin P) (c : Fin C) :
    Host.gather d x idx (ix2 p c)
      = x (ix2 (⟨min (idx (ix2 p (0 : Fin 1))).toInt.toNat (N - 1), by omega⟩ : Fin N) c) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the gathered axis: collapsed (so not kept: offset coordinate 0), start-indexed, slice size 1
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 p c : (⟨2, ![P, C]⟩ : Shape).Idx) X).val = p.val := fun X hX => by
        have hX1 : X ∉ d.offsetDims := by
          have := (List.mem_filter.1 hX).2
          simpa using this
        rw [hoff] at hX1
        match X with
        | ⟨0, _⟩ => rfl
        | ⟨1, _⟩ => exact absurd (List.mem_singleton.mpr rfl) hX1
      exact e _ (List.getElem_mem _)
    | ⟨1, _⟩ =>
      -- axis 1 is the index vector's: the component of the start index for the gathered axis is component 0
      unfold GatherDims.siIdx
      rw [dif_pos (by rw [hivd])]
      apply Fin.ext
      show List.idxOf (0 : Fin 2) d.startIndexMap = 0
      rw [hsim]; simp
  | ⟨1, _⟩ =>
    -- the offset axis: kept, not start-indexed (start 0), its coordinate the result's on the one offset axis
    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hb 1), Nat.add_zero]
    unfold GatherDims.start GatherDims.offCoord
    rw [dif_neg hm, dif_pos hk, Nat.zero_add]
    have e : ∀ X : Fin 2, X ∈ d.offsetDims → ((ix2 p c : (⟨2, ![P, C]⟩ : Shape).Idx) X).val = c.val := fun X hX => by
      rw [hoff] at hX
      obtain rfl := List.mem_singleton.1 hX
      rfl
    exact e _ (List.getElem_mem _)

/-- Columns of a [C, N] table at a column of start indices: result (c, p) is the table at (c, clamp idx[p, 0]). -/
theorem gather_cols_apply {N C P w : Nat} (hN : 0 < N)
    (d : GatherDims ⟨2, ![C, N]⟩ ⟨2, ![P, 1]⟩ ⟨2, ![C, P]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![C, 1])
    (x : (⟨2, ![C, N]⟩ : Shape).Idx → α) (idx : IVec ⟨2, ![P, 1]⟩ w) (c : Fin C) (p : Fin P) :
    Host.gather d x idx (ix2 c p)
      = x (ix2 c (⟨min (idx (ix2 p (0 : Fin 1))).toInt.toNat (N - 1), by omega⟩ : Fin N)) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the offset axis: kept, not start-indexed (start 0), its coordinate the result's on the one offset axis
    have hk : (0 : Fin 2) ∈ d.sKept := by rw [GatherDims.mem_sKept, hcoll, hob]; simp
    have hm : (0 : Fin 2) ∉ d.startIndexMap := by rw [hsim]; simp
    show d.start (ix2 c p) idx 0 + d.batchCoord (ix2 c p) 0 + d.offCoord (ix2 c p) 0 = c.val
    rw [GatherDims.batchCoord_eq_zero _ _ _ (hb 0), Nat.add_zero]
    unfold GatherDims.start GatherDims.offCoord
    rw [dif_neg hm, dif_pos hk, Nat.zero_add]
    have e : ∀ X : Fin 2, X ∈ d.offsetDims → ((ix2 c p : (⟨2, ![C, P]⟩ : Shape).Idx) X).val = c.val := fun X hX => by
      rw [hoff] at hX
      obtain rfl := List.mem_singleton.1 hX
      rfl
    exact e _ (List.getElem_mem _)
  | ⟨1, _⟩ =>
    -- the gathered axis: collapsed (so not kept: offset coordinate 0), start-indexed, slice size 1
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c p) idx 1 + d.batchCoord (ix2 c p) 1 + d.offCoord (ix2 c p) 1 = min _ (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 c p : (⟨2, ![C, P]⟩ : Shape).Idx) X).val = p.val := fun X hX => by
        have hX1 : X ∉ d.offsetDims := by
          have := (List.mem_filter.1 hX).2
          simpa using this
        rw [hoff] at hX1
        match X with
        | ⟨0, _⟩ => exact absurd (List.mem_singleton.mpr rfl) hX1
        | ⟨1, _⟩ => rfl
      exact e _ (List.getElem_mem _)
    | ⟨1, _⟩ =>
      -- axis 1 is the index vector's: the component of the start index for the gathered axis is component 0
      unfold GatherDims.siIdx
      rw [dif_pos (by rw [hivd])]
      apply Fin.ext
      show List.idxOf (1 : Fin 2) d.startIndexMap = 0
      rw [hsim]; simp

end Cert.LibGather2

end
-- ==== Proof.KITail.lean ====
/-
  The sixty-six host lines after the pallas_call, read back.  They slice the call's [4, 32768] result into rows 0-1 and
  rows 2-3, clamp each index array into [0, 32767] (a signed maximum with 0, then a signed minimum with 32767), take
  columns of each half at the clamped indices (jnp.take: a negative index has 32768 added, an in-bounds mask selects
  between the gathered value and a NaN constant), add the two takes and transpose.  For EVERY 32-bit word the clamped
  word, read signed, is min 32767 (max 0 word): it is never negative, so the normalisation leaves it alone, both mask
  compares are 1 and the NaN constant never shows; and the gather's own clamp of the clamped word is the column
  `Spec.row` names for the word itself (0 for a negative word on both sides).  So the result at (p, k) is the table's row k
  at column row ii[p] plus its row 2 + k at column row jj[p].
-/
import proofs.«412551_j8993661518510_3_alg».proof.Proof.KIFrame
import proofs.«412551_j8993661518510_3_alg».proof.Proof.Spec
import proofs.«412551_j8993661518510_3_alg».proof.Proof.LibGather2
import Idealize.ShloMosaic.Lib.StableHlo.Run
import Idealize.ShloMosaic.Lib.Pipeline.Value
import Idealize.ShloMosaic.Lib.ValueIdx
import Idealize.ShloMosaic.PureOps.Reduce

noncomputable section

namespace Cert.KernelIdeal.Tail

open Cert.KernelIdeal Cert.KernelIdeal.Gen
open Idealize.ShloMosaic Idealize.ShloMosaic.TcCoe Idealize.SL.Sem Idealize.ShloMosaic.ValueIdx

/-! ## The clamp of a 32-bit word into [0, 32767] -/

/-- A word clamped into [0, 32767]: the signed maximum with 0, then the signed minimum with 32767. -/
def cl (x : BitVec 32) : BitVec 32 := IntOp.minsi 32767#32 (IntOp.maxsi 0#32 x)

/-- The signed maximum of 0 and a word, read as an integer. -/
theorem maxsi_zero_toInt (x : BitVec 32) : (IntOp.maxsi 0#32 x).toInt = max 0 x.toInt := by
  have h0 : (0#32).toInt = 0 := by decide
  unfold IntOp.maxsi
  simp only [BitVec.slt, h0]
  split
  · next h => have h' : x.toInt < 0 := of_decide_eq_true h; rw [h0]; omega
  · next h => have h' : ¬ x.toInt < 0 := fun c => h (decide_eq_true c); omega

/-- The signed minimum of 32767 and a word, read as an integer. -/
theorem minsi_top_toInt (m : BitVec 32) : (IntOp.minsi 32767#32 m).toInt = min 32767 m.toInt := by
  have h1 : (32767#32).toInt = 32767 := by decide
  unfold IntOp.minsi
  simp only [BitVec.slt, h1]
  split
  · next h => have h' : 32767 < m.toInt := of_decide_eq_true h; rw [h1]; omega
  · next h => have h' : ¬ 32767 < m.toInt := fun c => h (decide_eq_true c); omega

/-- The clamped word is the integer clamp of the word read signed: no wrap-around for any word. -/
theorem cl_toInt (x : BitVec 32) : (cl x).toInt = min 32767 (max 0 x.toInt) := by
  unfold cl; rw [minsi_top_toInt, maxsi_zero_toInt]

/-- The clamped word is not negative, -/
theorem cl_slt (x : BitVec 32) : IntOp.cmpi .slt (cl x) 0#32 = 0#1 := by
  have h := cl_toInt x
  have h0 : (0#32).toInt = 0 := by decide
  unfold IntOp.cmpi
  simp only [BitVec.slt, h0]
  rw [decide_eq_false (by omega)]
  rfl

/-- it is at least 0 -/
theorem cl_sge (x : BitVec 32) : IntOp.cmpi .sge (cl x) 0#32 = 1#1 := by
  have h := cl_toInt x
  have h0 : (0#32).toInt = 0 := by decide
  unfold IntOp.cmpi
  simp only [BitVec.sle, h0]
  rw [decide_eq_true (by omega)]
  rfl

/-- and at most 32767. -/
theorem cl_sle (x : BitVec 32) : IntOp.cmpi .sle (cl x) 32767#32 = 1#1 := by
  have h := cl_toInt x
  have h1 : (32767#32).toInt = 32767 := by decide
  unfold IntOp.cmpi
  simp only [BitVec.sle, h1]
  rw [decide_eq_true (by omega)]
  rfl

/-- The column the clamped word names is the column the word itself names: both are 0 for a negative word. -/
theorem cl_col (x : BitVec 32) : min (cl x).toInt.toNat (32768 - 1) = min x.toInt.toNat 32767 := by
  rw [cl_toInt]; omega

/-- A reduction by `and` from 1 over an array whose every element is 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize ((List.finRange s.numel).map s.rowMajor.symm).filter (fun i => h.drop i = j) = l
  induction l with
  | nil => rfl
  | cons a l ih => rw [List.foldl_cons, hx a]; exact ih

/-! ## The operations' composed term, stage by stage -/

/-- An index array clamped elementwise: the minimum with 32767 of the maximum with 0. -/
def clipV (idx : IVec S512512 32) : IVec S512512 32 :=
  minsi (broadcastInDim S512512 ![] bcast_S_S512512 (constantI S_ 32 32767#32))
    (maxsi (broadcastInDim S512512 ![] bcast_S_S512512 (constantI S_ 32 0#32)) idx)

/-- A take's index normalisation: a negative index has the axis length 32768 added. -/
def wrapV (c : IVec S512512 32) : IVec S512512 32 :=
  select (cmpi .slt c (broadcastInDim S512512 ![] bcast_S_S512512 (constantI S_ 32 0#32)))
    (addi c (broadcastInDim S512512 ![] bcast_S_S512512 (constantI S_ 32 32768#32))) c

/-- The indices as a column of start indices. -/
def colV (t : IVec S512512 32) : IVec S512512x1 32 := broadcastInDim S512512x1 ![0] bcast_S512512_S512512x1_0 t

/-- A take's in-bounds mask: 0 ≤ index ≤ 32767, reduced by `and` over the column's one entry and spread over the two rows. -/
def maskV (c : IVec S512512x1 32) : IVec S2x512512 1 :=
  broadcastInDim S2x512512 ![1] bcast_S512512_S2x512512_1
    (Host.reduce IntOp.andi
      (andi (cmpi .sge c (broadcastInDim S512512x1 ![] bcast_S_S512512x1 (constantI S_ 32 0#32)))
        (cmpi .sle c (broadcastInDim S512512x1 ![0, 1] bcast_S1x1_S512512x1_0_1
          (broadcastInDim S1x1 ![1] bcast_S1_S1x1_1 (constantI S1 32 32767#32)))))
      (constantI S_ 1 1#1) reducesTo_S512512x1_S512512_d1 h_S_)

/-- A take of columns of a two-row table: the gathered columns where the mask holds, a NaN constant elsewhere. -/
def takeV (x : FVec Ideal S2x32768 .f32) (c : IVec S512512 32) : FVec Ideal S2x512512 .f32 :=
  select (maskV (colV (wrapV c))) (Host.gather gather_S2x32768_S512512x1_S2x512512_0_1_n_n_1_1_21 x (colV (wrapV c)))
    (broadcastInDim S2x512512 ![] bcast_S_S2x512512 (constant (F := Ideal) S_ .f32 0x7FC00000#32))

/-- The sixty-six lines' result from the table and the two index arrays: the two takes, of the table's rows 0-1 at the
    first array clamped and of its rows 2-3 at the second, summed and transposed. -/
def outV (Y : FVec Ideal S4x32768 .f32) (ii jj : IVec S512512 32) : FVec Ideal S512512x2 .f32 :=
  transpose S512512x2 [1, 0]
    (addf (takeV (extractStridedSlice S2x32768 ![0, 0] Y slices_S4x32768_S2x32768_0_0) (clipV ii))
      (takeV (extractStridedSlice S2x32768 ![2, 0] Y slices_S4x32768_S2x32768_2_0) (clipV jj)))
    transposes_S2x512512_S512512x2_1_0

set_option maxHeartbeats 2000000 in
/-- The fold of the sixty-six lines leaves that term of the contents of the table's and the index arrays' buffers. -/
theorem tail_term (W : Valuation τ sig (Elt Ideal)) :
    StableHlo.after (List.flatten (Cert.KernelIdeal.Frm.tailOps (F := Ideal))) W (Proc.devRef .tc main_v11)
      = outV (W (Proc.devRef .tc main_v3)) (W (Proc.devRef .tc main_arg4)) (W (Proc.devRef .tc main_arg5)) := by
  simp only [Cert.KernelIdeal.Frm.tailOps, hostOps1, hostOps1_1, hostOps1_2, hostOps1_3, hostOps1_4, hostOps1_5, hostOps1_6, List.flatten_cons, List.flatten_nil, List.append_nil, List.cons_append, List.nil_append]
  after_results_simp
  simp only [StableHlo.TRef.toBuf, StableHlo.TRef.ofBuf, cast_eq]
  rfl

/-! ## The stages read at an index -/

/-- The clamped array at an index is the clamp of the array's word there. -/
theorem clipV_apply (idx : IVec S512512 32) (i : S512512.Idx) : clipV idx i = cl (idx i) := rfl

/-- The normalisation leaves a clamped index as it is: it is not negative. -/
theorem wrapV_clipV (idx : IVec S512512 32) (i : S512512.Idx) : wrapV (clipV idx) i = cl (idx i) := by
  show Scalar.select (IntOp.cmpi .slt (cl (idx i)) 0#32) (IntOp.addi (cl (idx i)) 32768#32) (cl (idx i)) = cl (idx i)
  rw [cl_slt, select_zero]

/-- The column of start indices at (p, 0) is the clamp of the array's word at p. -/
theorem col_apply (idx : IVec S512512 32) (p : Fin 512512) (q : Fin 1) :
    colV (wrapV (clipV idx)) (ix2 p q) = cl (idx (ix1 p)) := by
  unfold colV
  rw [broadcastInDim_apply _ bcast_S512512_S512512x1_0 (wrapV (clipV idx)) (ix2 p q) (ix1 p) (fun a => match a with
    | ⟨0, _⟩ => by show p.val = if (512512 : Nat) = 1 then 0 else p.val; rw [if_neg (by decide)])]
  exact wrapV_clipV idx (ix1 p)

/-- The mask of a clamped index array holds everywhere: both compares are 1 for a word in [0, 32767]. -/
theorem mask_one (idx : IVec S512512 32) (j : S2x512512.Idx) : maskV (colV (wrapV (clipV idx))) j = 1#1 := by
  unfold maskV
  rw [show Host.reduce IntOp.andi
        (andi (cmpi .sge (colV (wrapV (clipV idx))) (broadcastInDim S512512x1 ![] bcast_S_S512512x1 (constantI S_ 32 0#32)))
          (cmpi .sle (colV (wrapV (clipV idx))) (broadcastInDim S512512x1 ![0, 1] bcast_S1x1_S512512x1_0_1
            (broadcastInDim S1x1 ![1] bcast_S1_S1x1_1 (constantI S1 32 32767#32)))))
        (constantI S_ 1 1#1) reducesTo_S512512x1_S512512_d1 h_S_ = fun _ => 1#1 from
      funext (reduce_andi_ones _ _ _ _ (fun i => by
        obtain ⟨p, q, rfl⟩ : ∃ (p : Fin 512512) (q : Fin 1), i = ix2 p q :=
          ⟨⟨(i 0).val, idx2_lt0 i⟩, ⟨(i 1).val, idx2_lt1 i⟩, by funext a; match a with | ⟨0, _⟩ => rfl | ⟨1, _⟩ => rfl⟩
        show IntOp.andi (IntOp.cmpi .sge (colV (wrapV (clipV idx)) (ix2 p q)) 0#32)
            (IntOp.cmpi .sle (colV (wrapV (clipV idx)) (ix2 p q)) 32767#32) = 1#1
        rw [col_apply, cl_sge, cl_sle]
        rfl) (fun _ => rfl))]
  rfl

/-- A take at a clamped index array, at row k and pair p: the table's row k at the column the array's word at p names. -/
theorem take_apply (x : FVec Ideal S2x32768 .f32) (idx : IVec S512512 32) (k : Fin 2) (p : Fin 512512) :
    takeV x (clipV idx) (ix2 k p) = x (ix2 k (Cert.Spec.row (idx (ix1 p)))) := by
  unfold takeV
  rw [select_apply, mask_one, select_one,
    Cert.LibGather2.gather_cols_apply (N := 32768) (C := 2) (P := 512512) (w := 32) (by decide)
      gather_S2x32768_S512512x1_S2x512512_0_1_n_n_1_1_21 rfl rfl rfl rfl rfl rfl rfl x (colV (wrapV (clipV idx))) k p]
  refine congrArg (fun n : Fin 32768 => x (ix2 k n)) (Fin.ext ?_)
  show min (colV (wrapV (clipV idx)) (ix2 p (0 : Fin 1))).toInt.toNat (32768 - 1) = min (idx (ix1 p)).toInt.toNat 32767
  rw [col_apply, cl_col]

/-- Rows 0-1 of the table. -/
theorem slice0_apply (Y : FVec Ideal S4x32768 .f32) (k : Fin 2) (n : Fin 32768) :
    extractStridedSlice S2x32768 ![0, 0] Y slices_S4x32768_S2x32768_0_0 (ix2 k n)
      = Y (ix2 (⟨k.val, by have := k.isLt; omega⟩ : Fin 4) n) :=
  extractStridedSlice_apply ![0, 0] Y slices_S4x32768_S2x32768_0_0 (ix2 k n) (ix2 (⟨k.val, by have := k.isLt; omega⟩ : Fin 4) n)
    (fun a => match a with
      | ⟨0, _⟩ => by show k.val = 0 + k.val; omega
      | ⟨1, _⟩ => by show n.val = 0 + n.val; omega)

/-- Rows 2-3 of the table. -/
theorem slice2_apply (Y : FVec Ideal S4x32768 .f32) (k : Fin 2) (n : Fin 32768) :
    extractStridedSlice S2x32768 ![2, 0] Y slices_S4x32768_S2x32768_2_0 (ix2 k n)
      = Y (ix2 (⟨2 + k.val, by have := k.isLt; omega⟩ : Fin 4) n) :=
  extractStridedSlice_apply ![2, 0] Y slices_S4x32768_S2x32768_2_0 (ix2 k n) (ix2 (⟨2 + k.val, by have := k.isLt; omega⟩ : Fin 4) n)
    (fun a => match a with
      | ⟨0, _⟩ => by show 2 + k.val = 2 + k.val; omega
      | ⟨1, _⟩ => by show n.val = 0 + n.val; omega)

/-- The result at (p, k): the table's row k at the column the first array names for p, plus its row 2 + k at the column
    the second names. -/
theorem outV_apply (Y : FVec Ideal S4x32768 .f32) (ii jj : IVec S512512 32) (p : Fin 512512) (k : Fin 2) :
    outV Y ii jj (ix2 p k)
      = Y (ix2 (⟨k.val, by have := k.isLt; omega⟩ : Fin 4) (Cert.Spec.row (ii (ix1 p))))
        + Y (ix2 (⟨2 + k.val, by have := k.isLt; omega⟩ : Fin 4) (Cert.Spec.row (jj (ix1 p)))) := by
  unfold outV
  rw [transpose_apply [1, 0] _ transposes_S2x512512_S512512x2_1_0 (ix2 p k) (ix2 k p) (fun b => match b with
      | ⟨0, _⟩ => rfl
      | ⟨1, _⟩ => rfl),
    addf_apply, take_apply, take_apply, slice0_apply, slice2_apply]

/-- The sixty-six host lines after the region, run from any buffer contents `W`, leave in `main_v11` at (p, k) the sum of
    two entries of the table `Y` that `W` holds in `main_v3`: row `k` at the column `row ii[p]` and row `2 + k` at the
    column `row jj[p]`, where `ii`, `jj` are the index arrays `W` holds in `main_arg4` and `main_arg5`. -/
theorem tail_eq (W : Valuation τ sig (Elt Ideal)) (Y : S4x32768.Idx → EReal) (ii jj : S512512.Idx → BitVec 32)
    (hY : W (Proc.devRef .tc main_v3) = Y) (hi : W (Proc.devRef .tc main_arg4) = ii) (hj : W (Proc.devRef .tc main_arg5) = jj) :
    StableHlo.after (List.flatten (Cert.KernelIdeal.Frm.tailOps (F := Ideal))) W (Proc.devRef .tc main_v11)
      = Cert.Spec.pick Y ii jj := by
  rw [tail_term, hY, hi, hj]
  funext y
  obtain ⟨p, k, rfl⟩ : ∃ (p : Fin 512512) (k : Fin 2), y = ix2 p k :=
    ⟨⟨(y 0).val, idx2_lt0 y⟩, ⟨(y 1).val, idx2_lt1 y⟩, by funext a; match a with | ⟨0, _⟩ => rfl | ⟨1, _⟩ => rfl⟩
  rw [outV_apply]
  rfl

end Cert.KernelIdeal.Tail

end
-- ==== Proof.RefValue.lean ====
import proofs.«412551_j8993661518510_3_alg».proof.Proof.Gen.ReferenceIdeal.Run
import proofs.«412551_j8993661518510_3_alg».proof.Proof.Gen.ReferenceIdeal.Read
import proofs.«412551_j8993661518510_3_alg».proof.Proof.Spec
import proofs.«412551_j8993661518510_3_alg».proof.Proof.LibGather2

noncomputable section

open scoped BigOperators

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.ValueIdx

/-- A start index that is not negative passes the wrap-around unchanged: the signed comparison with zero is the bit 0,
    so the select takes its second branch. -/
theorem wrap_of_nonneg (x : BitVec 32) (h : 0 ≤ x.toInt) :
    Scalar.select (IntOp.cmpi .slt x 0#32) (IntOp.addi x 32768#32) x = x := by
  have hs : x.slt 0#32 = false := by
    rw [Bool.eq_false_iff]
    intro hc
    rw [BitVec.slt_iff_toInt_lt] at hc
    have h0 : (0#32 : BitVec 32).toInt = 0 := by decide
    omega
  have hc : IntOp.cmpi .slt x 0#32 = 0#1 := by
    show BitVec.ofBool (x.slt 0#32) = 0#1
    rw [hs]
    rfl
  rw [hc, select_zero]

/-- The first gather's start-index column at (p, 0) is the first index array at p, when that entry is not negative. -/
theorem v11_at (x4 : (⟨S512512, .i32⟩ : BufTy).Contents (Elt Ideal)) (h4 : ∀ i, 0 ≤ (x4 i).toInt) (p : Fin 512512) :
    val_main_v11 (F := Ideal) x4 (ix2 p (0 : Fin 1)) = x4 (ix1 p) := by
  have e : idx_main_v11 (ix2 p (0 : Fin 1)) = ix1 p := funext fun a => Fin.ext (by match a with | ⟨0, _⟩ => rfl)
  rw [val_main_v11_apply, val_main_v10_apply, val_main_v7_apply, val_main_v9_apply, val_main_v6_apply, val_main_c_apply,
    val_main_v8_apply, val_main_c_0_apply, e]
  exact wrap_of_nonneg _ (h4 _)

/-- The second gather's start-index column at (p, 0) is the second index array at p, when that entry is not negative. -/
theorem v18_at (x5 : (⟨S512512, .i32⟩ : BufTy).Contents (Elt Ideal)) (h5 : ∀ i, 0 ≤ (x5 i).toInt) (p : Fin 512512) :
    val_main_v18 (F := Ideal) x5 (ix2 p (0 : Fin 1)) = x5 (ix1 p) := by
  have e : idx_main_v18 (ix2 p (0 : Fin 1)) = ix1 p := funext fun a => Fin.ext (by match a with | ⟨0, _⟩ => rfl)
  rw [val_main_v18_apply, val_main_v17_apply, val_main_v14_apply, val_main_v16_apply, val_main_v13_apply, val_main_c_1_apply,
    val_main_v15_apply, val_main_c_2_apply, e]
  exact wrap_of_nonneg _ (h5 _)

/-- The first product table at (n, k): row n of the first embedding table against row k of the weight's first half
    (the sum's factors commuted). -/
theorem v3_at (x0 : (⟨S32768x256, .f32⟩ : BufTy).Contents (Elt Ideal)) (x2 : (⟨S2x512, .f32⟩ : BufTy).Contents (Elt Ideal))
    (n : Fin 32768) (k : Fin 2) :
    val_main_v3 (F := Ideal) x0 x2 (ix2 n k) = ∑ d : Fin 256, Cert.Spec.wI x2 k d * x0 (ix2 n d) := by
  rw [val_main_v3_apply]
  refine Finset.sum_congr rfl fun d _ => ?_
  have el : lidx_main_v3 (ix2 n k) d = ix2 n d := funext fun a => Fin.ext (by match a with | ⟨0, _⟩ => rfl | ⟨1, _⟩ => rfl)
  have er : idx_main_v0 (idx_main_v2 (ridx_main_v3 (ix2 n k) d)) = ix2 k (⟨d.val, by have := d.isLt; omega⟩ : Fin 512) :=
    funext fun a => Fin.ext (by match a with | ⟨0, _⟩ => rfl | ⟨1, _⟩ => rfl)
  rw [val_main_v2_apply, val_main_v0_apply, el, er, mul_comm]
  rfl

/-- The second product table at (n, k): row n of the second embedding table against row k of the weight's second half. -/
theorem v5_at (x1 : (⟨S32768x256, .f32⟩ : BufTy).Contents (Elt Ideal)) (x2 : (⟨S2x512, .f32⟩ : BufTy).Contents (Elt Ideal))
    (n : Fin 32768) (k : Fin 2) :
    val_main_v5 (F := Ideal) x1 x2 (ix2 n k) = ∑ d : Fin 256, Cert.Spec.wJ x2 k d * x1 (ix2 n d) := by
  rw [val_main_v5_apply]
  refine Finset.sum_congr rfl fun d _ => ?_
  have el : lidx_main_v5 (ix2 n k) d = ix2 n d := funext fun a => Fin.ext (by match a with | ⟨0, _⟩ => rfl | ⟨1, _⟩ => rfl)
  have er : idx_main_v1 (idx_main_v4 (ridx_main_v5 (ix2 n k) d)) = ix2 k (⟨256 + d.val, by have := d.isLt; omega⟩ : Fin 512) :=
    funext fun a => Fin.ext (by match a with | ⟨0, _⟩ => rfl | ⟨1, _⟩ => rfl)
  rw [val_main_v4_apply, val_main_v1_apply, el, er, mul_comm]
  rfl

/-- The broadcast bias at (p, k) is the bias at k. -/
theorem v22_at (x3 : (⟨S2, .f32⟩ : BufTy).Contents (Elt Ideal)) (p : Fin 512512) (k : Fin 2) :
    val_main_v22 (F := Ideal) x3 (ix2 p k) = x3 (ix1 k) := by
  have e : idx_main_v21 (idx_main_v22 (ix2 p k)) = ix1 k := funext fun a => Fin.ext (by match a with | ⟨0, _⟩ => rfl)
  rw [val_main_v22_apply, val_main_v21_apply, e]

/-- The specification at (p, k), its coordinates read off. -/
theorem logits_at (x0 x1 : (⟨S32768x256, .f32⟩ : BufTy).Contents (Elt Ideal)) (x2 : (⟨S2x512, .f32⟩ : BufTy).Contents (Elt Ideal))
    (x3 : (⟨S2, .f32⟩ : BufTy).Contents (Elt Ideal)) (x4 x5 : (⟨S512512, .i32⟩ : BufTy).Contents (Elt Ideal))
    (p : Fin 512512) (k : Fin 2) :
    Cert.Spec.logits x0 x1 x2 x3 x4 x5 (ix2 p k)
      = Cert.Spec.projI x0 x2 x3 k (Cert.Spec.row (x4 (ix1 p))) + Cert.Spec.projJ x1 x2 k (Cert.Spec.row (x5 (ix1 p))) := rfl

/-- The gather's clamp into [0, 32768 − 1] is the specification's row. -/
theorem clamp_eq_row (x : BitVec 32) (h : min x.toInt.toNat (32768 - 1) < 32768) :
    (⟨min x.toInt.toNat (32768 - 1), h⟩ : Fin 32768) = Cert.Spec.row x := rfl

/-- The reference's result stage is the specification, when no start index is negative. -/
theorem result_eq (x0 x1 : (⟨S32768x256, .f32⟩ : BufTy).Contents (Elt Ideal)) (x2 : (⟨S2x512, .f32⟩ : BufTy).Contents (Elt Ideal))
    (x3 : (⟨S2, .f32⟩ : BufTy).Contents (Elt Ideal)) (x4 x5 : (⟨S512512, .i32⟩ : BufTy).Contents (Elt Ideal))
    (h4 : ∀ i, 0 ≤ (x4 i).toInt) (h5 : ∀ i, 0 ≤ (x5 i).toInt) :
    val_main_v23 (F := Ideal) x0 x1 x2 x3 x4 x5 = Cert.Spec.logits x0 x1 x2 x3 x4 x5 := by
  funext i
  obtain ⟨p, k, rfl⟩ : ∃ (p : Fin 512512) (k : Fin 2), i = ix2 p k := ⟨i 0, i 1, eq_ix2 i⟩
  rw [val_main_v23_apply, val_main_v20_apply, v22_at, logits_at, Ideal.addf_def, Ideal.addf_def]
  unfold val_main_v12 val_main_v19
  rw [Cert.LibGather2.gather_rows_apply (by decide) gather_S32768x2_S512512x1_S512512x2_1_0_n_n_0_1_12 rfl rfl rfl rfl rfl rfl rfl,
    Cert.LibGather2.gather_rows_apply (by decide) gather_S32768x2_S512512x1_S512512x2_1_0_n_n_0_1_12 rfl rfl rfl rfl rfl rfl rfl,
    clamp_eq_row, clamp_eq_row, v11_at x4 h4, v18_at x5 h5, v3_at, v5_at]
  -- (A + B) + bias = (A + bias) + B on the extended reals
  unfold Cert.Spec.projI Cert.Spec.projJ
  rw [add_right_comm]

end Cert.ReferenceIdeal.RefVal

end
-- ==== Proof.PreIdx.lean ====
import proofs.«412551_j8993661518510_3_alg».proof.Pre_finite_inputs
import proofs.«412551_j8993661518510_3_alg».proof.Proof.Gen.Pre_finite_inputs
import Idealize.ShloMosaic.Lib.ReduceAll
import Idealize.ShloMosaic.Lib.StableHlo.Predicate
import Idealize.ShloMosaic.Lib.ValueIdx

noncomputable section

namespace Cert.PreIdx

open Idealize.ShloMosaic Idealize.ShloMosaic.ValueIdx Cert.Pre_finite_inputs

variable [Cert.Pre_finite_inputs.Facts]

/-- The rank-0 shape has exactly one index. -/
instance subsingleton_scalar_idx : Subsingleton S_.Idx := ⟨fun a b => funext fun d => d.elim0⟩

/-- The signed comparison `x ≥ 0` of a word against the broadcast zero word, holding at an element, says the element is
    non-negative as a signed integer (`IntOp.cmpi_sge`; the broadcast of a constant reads that constant everywhere). -/
theorem nonneg_of_sge_bcast_zero (a : IVec S512512 32) (i : S512512.Idx)
    (e : cmpi .sge a (broadcastInDim S512512 ![] Facts.bcast_S_S512512 (constantI S_ 32 0#32)) i = 1#1) :
    0 ≤ (a i).toInt := by
  simp only [cmpi, broadcastInDim, constantI] at e
  rw [IntOp.cmpi_sge] at e
  simpa using e

/-- Under the precondition no entry of either index array is negative (read as a signed 32-bit integer). -/
theorem idx_nonneg {F : FTy → Type} [FloatOps F] (a0 a1 : FVec F S32768x256 .f32) (a2 : FVec F S2x512 .f32) (a3 : FVec F S2 .f32)
    (a4 a5 : IVec S512512 32)
    (h : Cert.Pre_finite_inputs.fn (F := F) a0 a1 a2 a3 a4 a5 = fun _ => 1#1) :
    (∀ i, 0 ≤ (a4 i).toInt) ∧ (∀ i, 0 ≤ (a5 i).toInt) := by
  -- the precondition at the one index of its rank-0 result: a left-nested conjunction of six reductions by `and`
  have e := congrFun h ValueIdx.ix0
  unfold Cert.Pre_finite_inputs.fn Cert.Pre_finite_inputs.fn_part1 at e
  dsimp only at e
  simp only [andi] at e
  -- the last two conjuncts are the reductions of the two index comparisons
  obtain ⟨e', h5⟩ := IntOp.andi_eq_one.1 e
  obtain ⟨-, h4⟩ := IntOp.andi_eq_one.1 e'
  -- a reduction by `and` over every axis that is 1 met a 1 at every element
  exact ⟨fun i => nonneg_of_sge_bcast_zero a4 i (Host.reduce_andi_all _ _ _ _ _ h4 i),
    fun i => nonneg_of_sge_bcast_zero a5 i (Host.reduce_andi_all _ _ _ _ _ h5 i)⟩

end Cert.PreIdx

end
-- ==== Proof.lean ====
/-
  The certificate's claims.  The kernel projects every utterance once inside one pallas_call (a [4, 32768] table: rows 0, 1
  the first projection with the bias, rows 2, 3 the second) and then, on the host, clamps each pair's two utterance
  indices into [0, 32767], takes the two table columns they name and adds them; the reference multiplies the embedding
  tables by the transposed weight halves on the host, gathers one row of each product per pair (an index below zero
  first wrapped by 32768, then clamped by the gather) and adds the bias last.  On index arrays without negative entries
  both are the specification's `logits`: per pair p and class k,
      (∑ d, w[k, d] · e[row ii[p], d] + b[k]) + ∑ d, w[k, 256 + d] · et[row jj[p], d]
  on the extended reals (only commutativity and associativity of + and · are used, so no finiteness is).
  The three frames: the two kernel programs' by the frame run of a one-region program with host lines after the region,
  the reference's by its run with the result dropped.  The idealization rewrote nothing, so `preserves` is `True`.
-/
import proofs.«412551_j8993661518510_3_alg».proof.Defs
import proofs.«412551_j8993661518510_3_alg».proof.Proof.Gen.Kernel
import proofs.«412551_j8993661518510_3_alg».proof.Proof.Gen.Kernel.Skeleton
import proofs.«412551_j8993661518510_3_alg».proof.Proof.Gen.Kernel.Launch
import proofs.«412551_j8993661518510_3_alg».proof.Proof.Gen.Kernel.Points
import proofs.«412551_j8993661518510_3_alg».proof.Proof.Gen.KernelIdeal
import proofs.«412551_j8993661518510_3_alg».proof.Proof.Gen.KernelIdeal.Skeleton
import proofs.«412551_j8993661518510_3_alg».proof.Proof.Gen.KernelIdeal.Launch
import proofs.«412551_j8993661518510_3_alg».proof.Proof.Gen.KernelIdeal.Points
import proofs.«412551_j8993661518510_3_alg».proof.Proof.Gen.ReferenceIdeal
import proofs.«412551_j8993661518510_3_alg».proof.Proof.Gen.ReferenceIdeal.Run
import proofs.«412551_j8993661518510_3_alg».proof.Proof.Gen.ReferenceIdeal.Read
import proofs.«412551_j8993661518510_3_alg».proof.Proof.Gen.Pre_finite_inputs
import proofs.«412551_j8993661518510_3_alg».proof.Proof.KFrame
import proofs.«412551_j8993661518510_3_alg».proof.Proof.KIFrame
import proofs.«412551_j8993661518510_3_alg».proof.Proof.KIValue
import proofs.«412551_j8993661518510_3_alg».proof.Proof.KITail
import proofs.«412551_j8993661518510_3_alg».proof.Proof.RefValue
import proofs.«412551_j8993661518510_3_alg».proof.Proof.PreIdx
import Idealize.ShloMosaic.Adequacy
import Idealize.ShloMosaic.Init

noncomputable section

namespace Cert.Proof

open Idealize.ShloMosaic Idealize.ShloMosaic.TcCoe Idealize.SL.Sem

/-! ## The idealized kernel's run, its result named -/

section KernelRun

open Cert.KernelIdeal Cert.KernelIdeal.Gen Cert.KernelIdeal.Frm

/-- After the host lines that follow the region, the result buffer holds the specification's logits of the arguments:
    the region leaves the specification's table in its result array, the later lines pick two of its entries per pair
    and class, and picking from the table is the logits. -/
theorem tail_result (m : (ℓ : Loc nD τ sig) → Buf (Elt Ideal) ℓ) (c : Dev nD) :
    Pipeline.afterTail₀ cfgs (dats m) 0 (V0 m) tailOps c main_v11
      = Cert.Spec.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Pipeline.afterTail₀
  rw [← Cert.Spec.pick_table]
  exact Cert.KernelIdeal.Tail.tail_eq _ _ _ _
    ((Pipeline.withArrays_arr spec0 launch0.win.arr_inj c _ _ 5).trans (Cert.KernelIdeal.Val.final5 m c))
    ((Pipeline.withArrays_of_ne _ c (V0 m c) _ main_arg4 (by exact (by decide : ∀ w, Pipeline.arrRef spec0 w ≠ main_arg4))).trans (V_main_arg4 m c))
    ((Pipeline.withArrays_of_ne _ c (V0 m c) _ main_arg5 (by exact (by decide : ∀ w, Pipeline.arrRef spec0 w ≠ main_arg5))).trans (V_main_arg5 m c))

/-- Every weakly fair execution of the idealized kernel terminates with the result at the specification's logits of the
    arguments, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
        = Cert.Spec.logits (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v11 (Pipeline.mem_restRefs_of main_v11 (by decide) (by decide))).trans (tail_result m c),
     args_of_post m (dats m) (A_eq m) r h c⟩)
    (run_main m ρ)

end KernelRun

/-! ## The claims -/

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification's logits of arguments that agree: the kernel by `kernel_run`; the
    reference's run ends at its last stage, which is the logits because the precondition leaves no index negative. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h4, h5⟩ := Cert.PreIdx.idx_nonneg _ _ _ _ _ _ (hpre c)
  rw [(hagree c).1, (hagree c).2.1, (hagree c).2.2.1, (hagree c).2.2.2.1, (hagree c).2.2.2.2.1, (hagree c).2.2.2.2.2]
  exact (Cert.ReferenceIdeal.Read.val_main_v23_eq _ _ _ _ _ _).trans (Cert.ReferenceIdeal.RefVal.result_eq _ _ _ _ _ _ h4 h5)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
